-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v15 : IVec S1600000 32) (main_v16 : IVec S1600000 32) : IVec S_ 1 :=
  let main_v17 : IVec S1600000 1 := cmpi .sge main_v15 main_v16
  let main_c_5 : IVec S_ 1 := constantI S_ 1 1#1
  let main_v18 : IVec S_ 1 := (fun x v => Host.reduce IntOp.andi x v reducesTo_S1600000_S_d0 h_S_) main_v17 main_c_5
  let main_v19 : IVec S_ 1 := andi main_v13 main_v18
  main_v19

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x1600000 32 := (extractStridedSlice S1x1600000 ![0, 0] · slices_S2x1600000_S1x1600000_0_0) main_arg1
  let main_v15 : IVec S1600000 32 := shapeCast S1600000 main_v14 shapeCasts_S1x1600000_S1600000
  let main_c_4 : IVec S_ 32 := constantI S_ 32 0#32
  let main_v16 : IVec S1600000 32 := broadcastInDim S1600000 ![] bcast_S_S1600000 main_c_4
  fn_part1 (F := F) main_v13 main_v15 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x64 : Shape := ⟨2, ![4000, 64]⟩
abbrev S4000x1 : Shape := ⟨2, ![4000, 1]⟩
abbrev S1700000x64 : Shape := ⟨2, ![1700000, 64]⟩
abbrev S50000x128 : Shape := ⟨2, ![50000, 128]⟩
abbrev S50000x2 : Shape := ⟨2, ![50000, 2]⟩
abbrev S50000x2x64 : Shape := ⟨3, ![50000, 2, 64]⟩
abbrev S128 : Shape := ⟨1, ![128]⟩
abbrev S1x128 : Shape := ⟨2, ![1, 128]⟩
abbrev S2000x128 : Shape := ⟨2, ![2000, 128]⟩

abbrev nBuf : Space → Nat
  | .hbm => 41
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S1700000x1, .i32⟩
  | .hbm, ⟨28, _⟩ => ⟨S1700000x64, .f32⟩
  | .hbm, ⟨29, _⟩ => ⟨S_, .f32⟩
  | .hbm, ⟨30, _⟩ => ⟨S100000x64, .f32⟩
  | .hbm, ⟨31, _⟩ => ⟨S1700000x1, .i32⟩
  | .hbm, ⟨32, _⟩ => ⟨S100000x64, .f32⟩
  | .hbm, ⟨33, _⟩ => ⟨S50000x128, .f32⟩
  | .hbm, ⟨34, _⟩ => ⟨S50000x2, .f32⟩
  | .hbm, ⟨35, _⟩ => ⟨S50000x2x64, .f32⟩
  | .hbm, ⟨36, _⟩ => ⟨S50000x128, .f32⟩
  | .hbm, ⟨37, _⟩ => ⟨S128, .f32⟩
  | .hbm, ⟨38, _⟩ => ⟨S1x128, .f32⟩
  | .hbm, ⟨39, _⟩ => ⟨S50000x128, .f32⟩
  | .hbm, ⟨40, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S100000x64_S50000x128 : S100000x64.ShapeCasts S50000x128
  shapeCasts_S100000_S50000x2 : S100000.ShapeCasts S50000x2
  bcast_S50000x2_S50000x2x64_0_1 : S50000x2.BroadcastsInDim S50000x2x64 (![0, 1] : Fin 2 → Fin S50000x2x64.rank)
  shapeCasts_S50000x2x64_S50000x128 : S50000x2x64.ShapeCasts S50000x128
  concatenates_S64_S64_S128_d0 : Shape.Concatenates [S64, S64] S128 0
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000x128_S100000x64 : S50000x128.ShapeCasts S100000x64
  scatter_S100000_S1700000x1_S1700000_n_0_0_1_wf : ScatterDims.WF S100000 S1700000x1 S1700000 [] [0] [0] 1
  dot_S4000x64_S64x64_S4000x64_1_0_0_1_n_n_wf : DotDims.WF S4000x64 S64x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.Region0.lean ====
/-
  The first kernel region, read as a value: after its 25 grid points the output array holds, at node n and feature j,
  (Σ_k x(n, k) · W(k, j)) · d(n), where x, W and the one-column array d are the region's three input arrays as it finds
  them. Point t works on rows 4000 t … 4000 t + 3999: it multiplies that band of x by the whole of W (the narrowing of
  both factors changes nothing at the extended reals, and the product into a zero accumulator is the plain sum over k)
  and scales row n of the product by d(n).
-/
import proofs.«414721_j27986006901444_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«414721_j27986006901444_3_alg».proof.Proof.LibDots

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The three input arrays and the output array of the region, at their literal types. -/
abbrev xArr0 (c : Dev nD) : S100000x64.Idx → EReal := V c main_arg0
abbrev wArr0 (c : Dev nD) : S64x64.Idx → EReal := V c main_arg2
abbrev dArr0 (c : Dev nD) : S100000x1.Idx → EReal := V c main_v15
abbrev outArr0 (c : Dev nD) : S100000x64.Idx → EReal := (dat0 (F := Ideal) V c).arrAt 3 cfg0.N

/-- The body's product read at row p and column q of its block: both factors' narrowing is the identity on the extended
    reals, the product into the zero accumulator is the sum over the contracted coordinate, and the one-column block is
    broadcast along the columns. -/
theorem gemmScale_block_apply (x0 : Vec Ideal S4000x64 .f32) (x1 : Vec Ideal S64x64 .f32) (x2 : Vec Ideal S4000x1 .f32)
    (p : Fin 4000) (q : Fin 64) :
    (k0_pay1 (F := Ideal) x0 x1 x2 : S4000x64.Idx → EReal) (ix2 p q)
      = (∑ k : Fin 64, (x0 : S4000x64.Idx → EReal) (ix2 p k) * (x1 : S64x64.Idx → EReal) (ix2 k q)) * (x2 : S4000x1.Idx → EReal) (ix2 p (0 : Fin 1)) := by
  unfold k0_pay1
  refine (mulf_apply _ _ (ix2 p q)).trans ?_
  refine congrArg₂ (· * ·) ?_ ?_
  · exact Cert.Lib.Dots.matmul_zero_rowsCols_apply dot_S4000x64_S64x64_S4000x64_1_0_0_1_n_n_wf none
      (truncf .bf16 x0 bitsLt_bf16_f32) (truncf .bf16 x1 bitsLt_bf16_f32) p q
  · rw [shapeCast_self]
    refine broadcastTo_apply _ _ _ (ix2 p (0 : Fin 1)) (fun a => ?_)
    match a with
    | ⟨0, _⟩ => rfl
    | ⟨1, _⟩ => rfl

theorem zero_offsets0 : (![0, 0] : Fin 2 → Nat) = fun _ => 0 := funext fun a => by fin_cases a <;> rfl

/-- The whole output array as one function of the three input arrays. -/
abbrev gemmScale (x : S100000x64.Idx → EReal) (w : S64x64.Idx → EReal) (d : S100000x1.Idx → EReal) : S100000x64.Idx → EReal :=
  fun i => (∑ k : Fin 64, x (ix2 (n0 := 100000) (i 0) k) * w (ix2 k (n1 := 64) (i 1))) * d (ix2 (n0 := 100000) (i 0) (0 : Fin 1))

/-- The block's entry (p, q) is the whole-array function at an array index i, once the three blocks' entries that the
    product reads are the arrays' entries on i's row and column. -/
theorem gemmScale_point (X : S100000x64.Idx → EReal) (W : S64x64.Idx → EReal) (D : S100000x1.Idx → EReal)
    (x0 : Vec Ideal S4000x64 .f32) (x1 : Vec Ideal S64x64 .f32) (x2 : Vec Ideal S4000x1 .f32)
    (p : Fin 4000) (q : Fin 64) (i : S100000x64.Idx)
    (h0 : ∀ k : Fin 64, (x0 : S4000x64.Idx → EReal) (ix2 p k) = X (ix2 (n0 := 100000) (i 0) k))
    (h1 : ∀ k : Fin 64, (x1 : S64x64.Idx → EReal) (ix2 k q) = W (ix2 k (n1 := 64) (i 1)))
    (h2 : (x2 : S4000x1.Idx → EReal) (ix2 p (0 : Fin 1)) = D (ix2 (n0 := 100000) (i 0) (0 : Fin 1))) :
    (k0_pay1 (F := Ideal) x0 x1 x2 : S4000x64.Idx → EReal) (ix2 p q) = gemmScale X W D i := by
  refine (gemmScale_block_apply x0 x1 x2 p q).trans ?_
  show _ = (∑ k : Fin 64, X (ix2 (n0 := 100000) (i 0) k) * W (ix2 k (n1 := 64) (i 1))) * D (ix2 (n0 := 100000) (i 0) (0 : Fin 1))
  rw [h2]
  exact congrArg (· * _) (Finset.sum_congr rfl fun k _ => by rw [h0 k, h1 k])

/-- The printed index maps, decided over the grid: point t takes block t of the two tall inputs and of the output, and
    the one block of the square input. -/
theorem block_index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function of the region's three input arrays. -/
theorem flushed0_eq (c : Dev nD) (t : Fin cfg0.N) :
    (dat0 (F := Ideal) V c).flushed 3 t = ((cfg0.win 3).blk t).view.read (Elt Ideal) (gemmScale (xArr0 V c) (wArr0 V c) (dArr0 V c)) := by
  show (cfg0.win 3).cut (grid0.coords t) ((dat0 V c).after 3 t) = _
  rw [after0_3]
  unfold out0_3
  rw [View.canon_unit_zero zero_offsets0]
  simp only [View.ld_unit_zero (S := S4000x64) zero_offsets0, View.ld_unit_zero (S := S64x64) zero_offsets0, View.ld_unit_zero (S := S4000x1) zero_offsets0]
  obtain ⟨e00, e01, e10, e11, e20, e21, e30, e31⟩ := block_index_facts0 t
  funext j
  obtain ⟨p, q, rfl⟩ : ∃ (p : Fin 4000) (q : Fin 64), j = ix2 p q := ⟨j 0, j 1, eq_ix2 j⟩
  show (k0_pay1 (F := Ideal) (iblk0 V c 0 t) (iblk0 V c 1 t) (iblk0 V c 2 t) : S4000x64.Idx → EReal) (ix2 p q)
    = gemmScale (xArr0 V c) (wArr0 V c) (dArr0 V c) (((cfg0.win 3).blk t).view.emb (ix2 p q))
  refine gemmScale_point (xArr0 V c) (wArr0 V c) (dArr0 V c) (iblk0 V c 0 t) (iblk0 V c 1 t) (iblk0 V c 2 t) p q
    (((cfg0.win 3).blk t).view.emb (ix2 p q)) (fun k => ?_) (fun k => ?_) ?_
  · -- the tall input's block t, rows 4000 t … 4000 t + 3999, all columns
    show V c main_arg0 (((cfg0.win 0).blk t).view.emb (ix2 p k)) = V c main_arg0 (ix2 (n0 := 100000) (((cfg0.win 3).blk t).view.emb (ix2 p q) 0) k)
    refine congrArg (V c main_arg0) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 64 + 1 * k.val = k.val; omega
  · -- the square input's one block
    show V c main_arg2 (((cfg0.win 1).blk t).view.emb (ix2 k q)) = V c main_arg2 (ix2 k (n1 := 64) (((cfg0.win 3).blk t).view.emb (ix2 p q) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  · -- the one-column input's block t
    show V c main_v15 (((cfg0.win 2).blk t).view.emb (ix2 p (0 : Fin 1))) = V c main_v15 (ix2 (n0 := 100000) (((cfg0.win 3).blk t).view.emb (ix2 p q) 0) (0 : Fin 1))
    refine congrArg (V c main_v15) (funext fun a => Fin.ext ?_)
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega

/-- An index of the output array is in point t's block iff each coordinate is in the block's range on its axis. -/
theorem mem_out_block0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Every index of the output array is written back: row r by point r / 4000. -/
theorem out_covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  have ht : (i 0).val / 4000 < cfg0.N := by rw [hN]; omega
  obtain ⟨-, -, -, -, -, -, e30, e31⟩ := block_index_facts0 ⟨(i 0).val / 4000, ht⟩
  refine ⟨⟨(i 0).val / 4000, ht⟩, flush0_3 _, ?_⟩
  rw [mem_out_block0]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 64 ≤ (i 1).val
      ∧ (i 1).val < win0_3.index ⟨(i 0).val / 4000, ht⟩ (1 : Fin 2) * 64 + 64
    rw [e31]; omega

/-- After the 25 write-backs the output array is the whole-array function of the three input arrays. -/
theorem outArr0_eq (c : Dev nD) : outArr0 V c = gemmScale (xArr0 V c) (wArr0 V c) (dArr0 V c) :=
  (dat0 (F := Ideal) V c).arrAt_eq_of_cover 3 (gemmScale (xArr0 V c) (wArr0 V c) (dArr0 V c))
    (fun t _ => flushed0_eq V c t) out_covered0

theorem region0_value (c : Dev nD) (n : Fin 100000) (j : Fin 64) :
    outArr0 V c (ix2 n j) = (∑ k : Fin 64, xArr0 V c (ix2 n k) * wArr0 V c (ix2 k j)) * dArr0 V c (ix2 n (0 : Fin 1)) := by
  rw [outArr0_eq]

end Cert.KernelIdeal.Hand

end
-- ==== Proof.Region1.lean ====
/-
  The second kernel region, read as a value: after its 25 grid points the output array holds, at row p and lane q of the
  [50000, 128] layout, a(p, q) · d(p, q) + β(0, q), where a, d and the one-row array β are the region's three input
  arrays as it finds them. Point t works on rows 2000 t … 2000 t + 1999, elementwise.
-/
import proofs.«414721_j27986006901444_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The three input arrays and the output array of the region, at their literal types. -/
abbrev aArr1 (c : Dev nD) : S50000x128.Idx → EReal := V c main_v21
abbrev dArr1 (c : Dev nD) : S50000x128.Idx → EReal := V c main_v24
abbrev bArr1 (c : Dev nD) : S1x128.Idx → EReal := V c main_v26
abbrev outArr1 (c : Dev nD) : S50000x128.Idx → EReal := (dat1 (F := Ideal) V c).arrAt 3 cfg1.N

/-- The zero offsets of a whole-block access, as a function. -/
theorem zeroOff1 : (![0, 0] : Fin 2 → Nat) = fun _ => 0 := funext fun a => by fin_cases a <;> rfl

/-- What the output array ends holding: the pointwise product of the two full arrays plus the one row, lane by lane. -/
abbrev G1 (a d : S50000x128.Idx → EReal) (b : S1x128.Idx → EReal) : S50000x128.Idx → EReal :=
  fun i => a i * d i + b (ix2 (0 : Fin 1) (⟨(i 1).val, idx2_lt1 i⟩ : Fin 128))

/-- The body's payload at a row and a lane of its block: the product of the two blocks there plus the row's lane. -/
theorem pay1_apply (x0 x1 : Vec Ideal S2000x128 .f32) (x2 : Vec Ideal S1x128 .f32) (r : Fin 2000) (q : Fin 128) :
    (k1_pay1 x0 x1 x2 : S2000x128.Idx → EReal) (ix2 r q) = x0 (ix2 r q) * x1 (ix2 r q) + x2 (ix2 (0 : Fin 1) q) := by
  unfold k1_pay1
  simp only [shapeCast_self]
  show x0 (ix2 r q) * x1 (ix2 r q) + broadcastTo S2000x128 x2 broadcasts_S1x128_S2000x128 (ix2 r q) = _
  rw [broadcastTo_1b_ab_apply]

/-- The printed index maps, decided over the grid: the three full-height windows sit at block row t, the one-row window at
    its only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first factor's block at point t is rows 2000 t … 2000 t + 1999 of its array. -/
theorem iblk1_0_apply (c : Dev nD) (t : Fin cfg1.N) (y : S2000x128.Idx) (k : S50000x128.Idx)
    (hk0 : (k 0).val = 2000 * t.val + (y 0).val) (hk1 : (k 1).val = (y 1).val) :
    (iblk1 V c 0 t : Vec Ideal S2000x128 .f32) y = aArr1 V c k := by
  obtain ⟨e0, e1, -⟩ := idx_facts1 t
  unfold iblk1
  rw [View.read_apply]
  show V c main_v21 _ = V c main_v21 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, hk1]; omega

/-- The second factor's block at point t is the same rows of its array. -/
theorem iblk1_1_apply (c : Dev nD) (t : Fin cfg1.N) (y : S2000x128.Idx) (k : S50000x128.Idx)
    (hk0 : (k 0).val = 2000 * t.val + (y 0).val) (hk1 : (k 1).val = (y 1).val) :
    (iblk1 V c 1 t : Vec Ideal S2000x128 .f32) y = dArr1 V c k := by
  obtain ⟨-, -, e0, e1, -⟩ := idx_facts1 t
  unfold iblk1
  rw [View.read_apply]
  show V c main_v24 _ = V c main_v24 _
  congr 1
  funext a
  apply Fin.ext
  match a with
  | ⟨0, _⟩ => show win1_1.index t (0 : Fin 2) * 2000 + 1 * (y 0).val = (k 0).val; rw [e0, hk0]; omega
  | ⟨1, _⟩ => show win1_1.index t (1 : Fin 2) * 128 + 1 * (y 1).val = (k 1).val; rw [e1, hk1]; omega

/-- The one-row window's block is the whole one-row array at every point. -/
theorem iblk1_2_apply (c : Dev nD) (t : Fin cfg1.N) (y : S1x128.Idx) :
    (iblk1 V c 2 t : Vec Ideal S1x128 .f32) y = bArr1 V c y := by
  obtain ⟨-, -, -, -, e0, e1, -⟩ := idx_facts1 t
  unfold iblk1
  rw [View.read_apply]
  show V c main_v26 _ = V c main_v26 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What the body stores at point t, at a row and lane of its block, is the closed form at the array index that row and
    lane sit at. -/
theorem point1_apply (c : Dev nD) (t : Fin cfg1.N) (r : Fin 2000) (q : Fin 128) (k : S50000x128.Idx)
    (hk0 : (k 0).val = 2000 * t.val + r.val) (hk1 : (k 1).val = q.val) :
    (k1_pay1 (iblk1 V c 0 t) (iblk1 V c 1 t) (iblk1 V c 2 t) : S2000x128.Idx → EReal) (ix2 r q)
      = G1 (aArr1 V c) (dArr1 V c) (bArr1 V c) k := by
  refine (pay1_apply _ _ _ r q).trans ?_
  rw [iblk1_0_apply V c t (ix2 r q) k hk0 hk1, iblk1_1_apply V c t (ix2 r q) k hk0 hk1, iblk1_2_apply V c t (ix2 (0 : Fin 1) q)]
  have hq : (⟨(k 1).val, idx2_lt1 k⟩ : Fin 128) = q := Fin.ext hk1
  show _ = aArr1 V c k * dArr1 V c k + bArr1 V c (ix2 (0 : Fin 1) (⟨(k 1).val, idx2_lt1 k⟩ : Fin 128))
  rw [hq]

/-- The same at any index of the block. -/
theorem point1_apply' (c : Dev nD) (t : Fin cfg1.N) (y : S2000x128.Idx) (k : S50000x128.Idx)
    (hk0 : (k 0).val = 2000 * t.val + (y 0).val) (hk1 : (k 1).val = (y 1).val) :
    (k1_pay1 (iblk1 V c 0 t) (iblk1 V c 1 t) (iblk1 V c 2 t) : S2000x128.Idx → EReal) y
      = G1 (aArr1 V c) (dArr1 V c) (bArr1 V c) k := by
  rw [eq_ix2 y]
  exact point1_apply V c t (y 0) (y 1) k hk0 hk1

/-- What point t writes back is block t of the closed form. -/
theorem flushed1_eq (c : Dev nD) (t : Fin cfg1.N) :
    (dat1 (F := Ideal) V c).flushed 3 t
      = ((cfg1.win 3).blk t).view.read (Elt Ideal) (G1 (aArr1 V c) (dArr1 V c) (bArr1 V c)) := by
  show (cfg1.win 3).cut (grid1.coords t) ((dat1 V c).after 3 t) = _
  rw [after1_3]
  unfold out1_3
  rw [View.canon_unit_zero zeroOff1]
  simp only [View.ld_unit_zero (S := S2000x128) zeroOff1, View.ld_unit_zero (S := S1x128) zeroOff1]
  obtain ⟨-, -, -, -, -, -, e0, e1⟩ := idx_facts1 t
  funext j
  rw [View.read_apply]
  refine point1_apply' V c t ((win1 3).xinj (grid1.coords t) j) _ ?_ ?_
  · show win1_3.index t (0 : Fin 2) * 2000 + 1 * (j 0).val = 2000 * t.val + (j 0).val
    rw [e0]; omega
  · show win1_3.index t (1 : Fin 2) * 128 + 1 * (j 1).val = (j 1).val
    rw [e1]; omega

/-- An index of the output array is in point t's block iff each coordinate is in the block's range on its axis. -/
theorem mem_blk1 (t : Fin cfg1.N) (i : S50000x128.Idx) :
    i ∈ ((cfg1.win 3).blk t).view.set
      ↔ ∀ a : Fin 2, win1_3.index t a * S2000x128.size a ≤ (i a).val
          ∧ (i a).val < win1_3.index t a * S2000x128.size a + S2000x128.size a := by
  show i ∈ ((View.whole main_v27).slice (win1_3.rect t)).set ↔ _
  rw [View.set_slice_whole, Rect.mem_set_unit]
  exact Iff.rfl

/-- Every index of the output array is in the block of the point its row falls to: row p belongs to point p / 2000. -/
theorem cover1 (i : S50000x128.Idx) :
    ∃ t : Fin cfg1.N, (cfg1.win 3).flush t = true ∧ i ∈ ((cfg1.win 3).blk t).view.set := by
  have hN : grid1.N = 25 := N_1
  have hi0 : (i 0).val < 50000 := (i 0).isLt
  have hi1 : (i 1).val < 128 := (i 1).isLt
  let t : Fin cfg1.N := ⟨(i 0).val / 2000, by show (i 0).val / 2000 < grid1.N; rw [hN]; omega⟩
  have ht : t.val = (i 0).val / 2000 := rfl
  obtain ⟨-, -, -, -, -, -, e0, e1⟩ := idx_facts1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 128 ≤ (i 1).val ∧ (i 1).val < win1_3.index t (1 : Fin 2) * 128 + 128
    rw [e1]; omega

/-- The output array after the run is the closed form, whole. -/
theorem final1 (c : Dev nD) :
    (dat1 (F := Ideal) V c).arrAt 3 cfg1.N = G1 (aArr1 V c) (dArr1 V c) (bArr1 V c) :=
  (dat1 (F := Ideal) V c).arrAt_eq_of_cover 3 (G1 (aArr1 V c) (dArr1 V c) (bArr1 V c))
    (fun t _ => flushed1_eq V c t) cover1

theorem region1_value (c : Dev nD) (p : Fin 50000) (q : Fin 128) :
    outArr1 V c (ix2 p q) = aArr1 V c (ix2 p q) * dArr1 V c (ix2 p q) + bArr1 V c (ix2 (0 : Fin 1) q) := by
  show (dat1 (F := Ideal) V c).arrAt 3 cfg1.N (ix2 p q) = _
  rw [final1 V c]

end Cert.KernelIdeal.Hand

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.GcnTerms.lean ====
/-
  The quantities both programs compute, named once.

  A graph convolution over N = 100000 nodes and E = 1600000 directed edges, each node also its own neighbour:
  message r (of E + N) goes from node `row r` to node `col r`. With deg(n) the number of messages arriving at n and
  dinv(n) = deg(n)^(-1/2) (0 where no message arrives), and h = x · W, the layer's output at node s is
      b + Σ over the messages r arriving at s of  h(row r) · dinv(row r) · dinv(s).
  One program scales every message by dinv(row r) · dinv(col r) before adding them up; the other scales h(row r) by
  dinv(row r) before the messages are collected and the collected sum by dinv(s) afterwards.

  The index words, the counts and their inverse square roots are written here exactly as both programs spell them
  (slice, reshape, concatenate with the self loops, scatter-add of ones, compare, rsqrt, select), over any float
  instance; the two results are written at the extended reals, at a node s and a feature j.
-/
import proofs.«414721_j27986006901444_3_alg».proof.Proof.Gen.KernelIdeal
import proofs.«414721_j27986006901444_3_alg».proof.Proof.LibClampIx
import Idealize.ShloMosaic.Lib.ValueIdx
import Idealize.ShloMosaic.PureOps.Ideal

noncomputable section

namespace Cert.Gcn

open Idealize.ShloMosaic Idealize.ShloMosaic.ValueIdx Cert.KernelIdeal Cert.KernelIdeal.Facts₀ Cert.Hand

variable {F : FTy → Type} [FloatOps F]

/-- The source node of every message, as 32-bit words: the E given sources, then the N self loops 0 … N − 1. -/
def rowW (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The target node of every message: the E given targets, then the N self loops. -/
def colW (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- The targets as a column of index vectors, the form a scatter takes them in. -/
def colIx (ei : IVec S2x1600000 32) : IVec S1700000x1 32 := broadcastInDim S1700000x1 ![0] bcast_S1700000_S1700000x1_0 (colW ei)

/-- The sources as a column of index vectors, the form a gather takes them in. -/
def rowIx (ei : IVec S2x1600000 32) : IVec S1700000x1 32 := broadcastInDim S1700000x1 ![0] bcast_S1700000_S1700000x1_0 (rowW ei)

/-- deg: a one added at every message's target. -/
def degV (ei : IVec S2x1600000 32) : FVec F S100000 .f32 :=
  Host.scatterAdd scatter_S100000_S1700000x1_S1700000_n_0_0_1
    (broadcastInDim S100000 ![] bcast_S_S100000 (constant S_ .f32 0x00000000#32)) (colIx ei)
    (broadcastInDim S1700000 ![] bcast_S_S1700000 (constant S_ .f32 0x3F800000#32))

/-- dinv: deg^(-1/2) where deg > 0, else 0. -/
def dinvV (ei : IVec S2x1600000 32) : FVec F S100000 .f32 :=
  select (cmpf (F := F) .ogt (degV ei) (broadcastInDim S100000 ![] bcast_S_S100000 (constant S_ .f32 0x00000000#32)))
    (Host.rsqrt (degV ei)) (broadcastInDim S100000 ![] bcast_S_S100000 (constant S_ .f32 0x00000000#32))

/-! ## At the extended reals, index by index -/

/-- h = x · W at node n, feature j. -/
def hAt (x : FVec Ideal S100000x64 .f32) (w : FVec Ideal S64x64 .f32) (n : Fin 100000) (j : Fin 64) : EReal :=
  ∑ k : Fin 64, x (ix2 n k) * w (ix2 k j)

/-- dinv at node n. -/
def dinvAt (ei : IVec S2x1600000 32) (n : Fin 100000) : EReal := dinvV (F := Ideal) ei (ix1 n)

/-- The messages arriving at node s: those whose target word, read signed, is s. -/
def segRows (ei : IVec S2x1600000 32) (s : Fin 100000) : Finset (Fin 1700000) :=
  Finset.univ.filter fun r => (colIx ei (ix2 r (0 : Fin 1))).toInt = (s.val : Int)

/-- NumPy-style normalisation of an index word: a word below zero has the axis' length added. -/
def wrapW (w : BitVec 32) : BitVec 32 := Scalar.select (IntOp.cmpi .slt w 0#32) (IntOp.addi w 100000#32) w

/-- The node a gather by the source word reads: the word clamped onto the axis. -/
def srcK (ei : IVec S2x1600000 32) (r : Fin 1700000) : Fin 100000 := clampIx 100000 (by decide) (rowW ei (ix1 r))

/-- The node a gather by the normalised source word reads. -/
def srcR (ei : IVec S2x1600000 32) (r : Fin 1700000) : Fin 100000 := clampIx 100000 (by decide) (wrapW (rowW ei (ix1 r)))

/-- The node a gather by the normalised target word reads. -/
def dstR (ei : IVec S2x1600000 32) (r : Fin 1700000) : Fin 100000 := clampIx 100000 (by decide) (wrapW (colW ei (ix1 r)))

/-- Scale before collecting and after: (Σ_r h(row r) · dinv(row r)) · dinv(s) + b. -/
def kernelOut (x : FVec Ideal S100000x64 .f32) (ei : IVec S2x1600000 32) (w : FVec Ideal S64x64 .f32) (b : FVec Ideal S64 .f32)
    (s : Fin 100000) (j : Fin 64) : EReal :=
  (∑ r ∈ segRows ei s, hAt x w (srcK ei r) j * dinvAt ei (srcK ei r)) * dinvAt ei s + b (ix1 j)

/-- Scale every message: Σ_r h(row r) · (dinv(row r) · dinv(col r)) + b. -/
def refOut (x : FVec Ideal S100000x64 .f32) (ei : IVec S2x1600000 32) (w : FVec Ideal S64x64 .f32) (b : FVec Ideal S64 .f32)
    (s : Fin 100000) (j : Fin 64) : EReal :=
  (∑ r ∈ segRows ei s, hAt x w (srcR ei r) j * (dinvAt ei (srcR ei r) * dinvAt ei (dstR ei r))) + b (ix1 j)

end Cert.Gcn

end
-- ==== Proof.LibGatherAt.lean ====
import proofs.«414721_j27986006901444_3_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibLayoutIx.lean ====
/-
  LAYOUT OPERATIONS OF A HOST PROGRAM READ AT AN INDEX BUILT FROM COORDINATES — general lemmas, about no particular
  program.

  Each lemma rewrites ONE layout operation of StableHLO — `broadcastInDim`, `extractStridedSlice`, `shapeCast`,
  `transpose`, `concatenate` — applied at an index written by its coordinates (`ValueIdx.ix0` … `ix3`) to its operand
  at the index it reads, again written by coordinates. The equations are oriented left to right for `simp only`: a
  chain of layout operations applied at `ix2 n c` is pushed down to the operand's element, one rewrite per operation.
  Shapes are LITERAL (`⟨rank, ![…]⟩`), their extents variables wherever no unit axis is involved, so one lemma serves
  every program whose shapes are reducible abbreviations of such literals; the operation's side condition
  (`Shape.Slices`, `ShapeCasts`, `BroadcastsInDim`, `Transposes`, `Concatenates`) is ANY proof `h`, bound as a variable.

  What is proved:
  * a rank-0 operand broadcast to any shape reads its one element (`broadcastInDim_scalar`);
  * a rank-1 operand broadcast into a column `[N, 1]` or a row `[1, N]` reads its coordinate (`broadcastInDim_col`,
    `broadcastInDim_row`); a row `[1, N]` stretched to `[R, N]` and a column `[N, 1]` stretched to `[N, C]` read the
    unit axis at 0 (`broadcastInDim_rows`, `broadcastInDim_cols`);
  * column `k` of an `[N, C]` array and row `k` of an `[R, N]` array, sliced out as `[N, 1]` / `[1, N]`
    (`extractStridedSlice_col`, `extractStridedSlice_row`);
  * a column or a row reshaped to rank 1 (`shapeCast_col`, `shapeCast_row`), and a `[U, V, L]` table flattened to
    `[U * V, L]`, read at row `f` as `(f / V, f % V)` (`shapeCast_table`, and `shapeCast_table_2048` at the literal 4194304);
  * the transposes `[1, 0]` of rank 2 and `[2, 0, 1]` of rank 3 (`transpose_10`, `transpose_201`);
  * two columns joined along axis 1 (`concatenate_cols_zero`, `concatenate_cols_one`) and twelve rows joined along axis 0:
    row `r` is piece `r`, for the index `ix2 ⟨r, hr⟩ n` (`concatenate_rows12_0` … `_11`), for `r` a numeral of `Fin 12`
    (`concatenate_rows12_num_0` … `_11`) and for any `r` (`concatenate_rows12`, the piece picked out of `![u0, …, u11]`);
  * pointwise host operations read at an index, all by `rfl`: the host's quotient, floor, absolute value and
    round-half-even at the ideal instance, the float-to-integer conversion there, and the integer splat, sum, product,
    signed minimum and comparison.
-/
import Idealize.ShloMosaic.Lib.ValueIdx
import Idealize.ShloMosaic.Lib.Pipeline.Value

namespace Cert.LibLayoutIx

open Idealize.ShloMosaic Idealize.ShloMosaic.ValueIdx

variable {α : Type}

/-! ## Broadcasts -/

/-- A rank-0 operand broadcast to ANY shape reads its one element at every index (`dims` is the empty map). -/
theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A rank-1 operand laid down as the COLUMN `[N, 1]` reads its coordinate `n` at `(n, k)`. (When `N = 1` the
    operand's axis counts as a unit axis and is read at 0, which is then `n`.) The axis map is written at the literal
    ranks, `Fin 1 → Fin 2`, the form under which the simplifier finds the equation from a shape given by name. -/
theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with
    | ⟨0, _⟩ => by
      have hn := n.isLt
      show n.val = if N = 1 then 0 else n.val
      split
      · omega
      · rfl)

/-- A rank-1 operand laid down as the ROW `[1, N]` reads its coordinate `n` at `(k, n)`. -/
theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

/-- A ROW `[1, N]` stretched to `[R, N]` reads the row at `(0, n)`, whatever the row `r` asked for. -/
theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

/-- A COLUMN `[N, 1]` stretched to `[N, C]` reads the column at `(n, 0)`, whatever the column `c` asked for. -/
theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => by
      have hn := n.isLt
      show n.val = if N = 1 then 0 else n.val
      split
      · omega
      · rfl
    | ⟨1, _⟩ => by
      show (0 : Nat) = if (1 : Nat) = 1 then 0 else c.val
      rfl)

/-! ## Slices -/

/-- The column a slice `[N, 1]` at offsets `(0, k)` of an `[N, C]` array takes is inside the array. -/
theorem slice_col_lt {N C k : Nat} (h : (⟨2, ![N, C]⟩ : Shape).Slices ![0, k] ⟨2, ![N, 1]⟩) : k < C := by
  have h1 := h.2 ⟨1, Nat.one_lt_two⟩
  change k + 1 ≤ C at h1
  omega

/-- COLUMN `k` of an `[N, C]` array, sliced out as `[N, 1]`, reads the array at `(n, k)`. -/
theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  extractStridedSlice_apply _ x h _ _ (fun a => match a with
    | ⟨0, _⟩ => by show n.val = 0 + n.val; omega
    | ⟨1, _⟩ => by have hz := z.isLt; show k = k + z.val; omega)

/-- The row a slice `[1, N]` at offsets `(k, 0)` of an `[R, N]` array takes is inside the array. -/
theorem slice_row_lt {R N k : Nat} (h : (⟨2, ![R, N]⟩ : Shape).Slices ![k, 0] ⟨2, ![1, N]⟩) : k < R := by
  have h0 := h.2 ⟨0, Nat.two_pos⟩
  change k + 1 ≤ R at h0
  omega

/-- ROW `k` of an `[R, N]` array, sliced out as `[1, N]`, reads the array at `(k, n)`. -/
theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

/-! ## Reshapes -/

/-- A column `[N, 1]` reshaped to rank 1 reads `(n, 0)` at `n`. -/
theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    show n.val * 1 + 0 = n.val
    omega)

/-- A row `[1, N]` reshaped to rank 1 reads `(0, n)` at `n`. -/
theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_apply x h _ (ix2 0 n) (by
    rw [Shape.rowMajor_val_two, Shape.rowMajor_val_one]
    show 0 * N + n.val = n.val
    omega)

/-- A row `m` of the flattened table lies in block `m / V`, which is one of the `U` blocks. -/
theorem table_div_lt {U V m : Nat} (hm : m < U * V) : m / V < U :=
  Nat.div_lt_of_lt_mul (Nat.mul_comm U V ▸ hm)

/-- A row `m` of the flattened table is row `m % V` of its block (a nonempty table has `0 < V`). -/
theorem table_mod_lt {U V m : Nat} (hm : m < U * V) : m % V < V := by
  rcases Nat.eq_zero_or_pos V with h0 | hV
  · rw [h0, Nat.mul_zero] at hm; exact absurd hm (Nat.not_lt_zero _)
  · exact Nat.mod_lt _ hV

/-- A `[U, V, L]` table FLATTENED to `[U * V, L]`: row `f` of the result is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, table_div_lt f.isLt⟩ ⟨f.val % V, table_mod_lt f.isLt⟩ l) :=
  shapeCast_apply x h _ _ (by
    rw [Shape.rowMajor_val_three, Shape.rowMajor_val_two]
    show (f.val / V * V + f.val % V) * L + l.val = f.val * L + l.val
    rw [Nat.div_add_mod'])

/-- The same with the row count written out, `2048 * 2048 = 4194304`, and two lanes: the form that matches a target
    shape given as the literal `[4194304, 2]`. -/
theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_apply x h _ _ (by
    rw [Shape.rowMajor_val_three, Shape.rowMajor_val_two]
    show (f.val / 2048 * 2048 + f.val % 2048) * 2 + l.val = f.val * 2 + l.val
    omega)

/-! ## Transposes -/

/-- The rank-2 transpose: `(c, n)` of the result is `(n, c)` of the operand (either direction is this equation). -/
theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- The rank-3 transpose that brings the last axis to the front: `(l, u, v)` of the result is `(u, v, l)` of the operand. -/
theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) (fun b => match b with
    | ⟨0, _⟩ => rfl
    | ⟨1, _⟩ => rfl
    | ⟨2, _⟩ => rfl)

/-! ## Concatenations -/

/-- Two columns joined along axis 1, read in column 0: the FIRST column. -/
theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- Two columns joined along axis 1, read in column 1: the SECOND column (at its own column 0). -/
theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun c hc => match c, hc with
      | ⟨0, _⟩, _ => rfl
      | ⟨1, _⟩, hc => absurd rfl hc)
    (by show 0 + 1 = 1; rfl)

section Rows12
variable {N : Nat} (u0 u1 u2 u3 u4 u5 u6 u7 u8 u9 u10 u11 : (⟨2, ![1, N]⟩ : Shape).Idx → α)

set_option quotPrecheck false in
/-- The twelve rows, each with its shape, in the order the concatenation lists them. -/
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- TWELVE ROWS joined along axis 0, read in row `R`: the piece that sits at position `R` of the list (`hx`), once the
    extents of the pieces before it are known to add up to `R` (`hp`: each piece is one row). -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun c hc => match c, hc with
      | ⟨0, _⟩, hc => absurd rfl hc
      | ⟨1, _⟩, _ => rfl)
    (by show R + 0 = R; rfl)

/-! Row `r` at the index `ix2 ⟨r, hr⟩ n`, `hr` any proof of the bound. -/

/-- Row 0 of the twelve joined rows is the first piece. -/
theorem concatenate_rows12_0 (hr : 0 < 12) (n : Fin N) :
    concatenate ⟨2, ![12, N]⟩ 0 rows12 h (ix2 ⟨0, hr⟩ n) = u0 (ix2 0 n) :=
  concatenate_rows12_at u0 u1 u2 u3 u4 u5 u6 u7 u8 u9 u10 u11 h 0 hr u0 rfl rfl n

/-- Row 1 of the twelve joined rows is the second piece. -/
theorem concatenate_rows12_1 (hr : 1 < 12) (n : Fin N) :
    concatenate ⟨2, ![12, N]⟩ 0 rows12 h (ix2 ⟨1, hr⟩ n) = u1 (ix2 0 n) :=
  concatenate_rows12_at u0 u1 u2 u3 u4 u5 u6 u7 u8 u9 u10 u11 h 1 hr u1 rfl rfl n

/-- Row 2 of the twelve joined rows is the third piece. -/
theorem concatenate_rows12_2 (hr : 2 < 12) (n : Fin N) :
    concatenate ⟨2, ![12, N]⟩ 0 rows12 h (ix2 ⟨2, hr⟩ n) = u2 (ix2 0 n) :=
  concatenate_rows12_at u0 u1 u2 u3 u4 u5 u6 u7 u8 u9 u10 u11 h 2 hr u2 rfl rfl n

/-- Row 3 of the twelve joined rows is the fourth piece. -/
theorem concatenate_rows12_3 (hr : 3 < 12) (n : Fin N) :
    concatenate ⟨2, ![12, N]⟩ 0 rows12 h (ix2 ⟨3, hr⟩ n) = u3 (ix2 0 n) :=
  concatenate_rows12_at u0 u1 u2 u3 u4 u5 u6 u7 u8 u9 u10 u11 h 3 hr u3 rfl rfl n

/-- Row 4 of the twelve joined rows is the fifth piece. -/
theorem concatenate_rows12_4 (hr : 4 < 12) (n : Fin N) :
    concatenate ⟨2, ![12, N]⟩ 0 rows12 h (ix2 ⟨4, hr⟩ n) = u4 (ix2 0 n) :=
  concatenate_rows12_at u0 u1 u2 u3 u4 u5 u6 u7 u8 u9 u10 u11 h 4 hr u4 rfl rfl n

/-- Row 5 of the twelve joined rows is the sixth piece. -/
theorem concatenate_rows12_5 (hr : 5 < 12) (n : Fin N) :
    concatenate ⟨2, ![12, N]⟩ 0 rows12 h (ix2 ⟨5, hr⟩ n) = u5 (ix2 0 n) :=
  concatenate_rows12_at u0 u1 u2 u3 u4 u5 u6 u7 u8 u9 u10 u11 h 5 hr u5 rfl rfl n

/-- Row 6 of the twelve joined rows is the seventh piece. -/
theorem concatenate_rows12_6 (hr : 6 < 12) (n : Fin N) :
    concatenate ⟨2, ![12, N]⟩ 0 rows12 h (ix2 ⟨6, hr⟩ n) = u6 (ix2 0 n) :=
  concatenate_rows12_at u0 u1 u2 u3 u4 u5 u6 u7 u8 u9 u10 u11 h 6 hr u6 rfl rfl n

/-- Row 7 of the twelve joined rows is the eighth piece. -/
theorem concatenate_rows12_7 (hr : 7 < 12) (n : Fin N) :
    concatenate ⟨2, ![12, N]⟩ 0 rows12 h (ix2 ⟨7, hr⟩ n) = u7 (ix2 0 n) :=
  concatenate_rows12_at u0 u1 u2 u3 u4 u5 u6 u7 u8 u9 u10 u11 h 7 hr u7 rfl rfl n

/-- Row 8 of the twelve joined rows is the ninth piece. -/
theorem concatenate_rows12_8 (hr : 8 < 12) (n : Fin N) :
    concatenate ⟨2, ![12, N]⟩ 0 rows12 h (ix2 ⟨8, hr⟩ n) = u8 (ix2 0 n) :=
  concatenate_rows12_at u0 u1 u2 u3 u4 u5 u6 u7 u8 u9 u10 u11 h 8 hr u8 rfl rfl n

/-- Row 9 of the twelve joined rows is the tenth piece. -/
theorem concatenate_rows12_9 (hr : 9 < 12) (n : Fin N) :
    concatenate ⟨2, ![12, N]⟩ 0 rows12 h (ix2 ⟨9, hr⟩ n) = u9 (ix2 0 n) :=
  concatenate_rows12_at u0 u1 u2 u3 u4 u5 u6 u7 u8 u9 u10 u11 h 9 hr u9 rfl rfl n

/-- Row 10 of the twelve joined rows is the eleventh piece. -/
theorem concatenate_rows12_10 (hr : 10 < 12) (n : Fin N) :
    concatenate ⟨2, ![12, N]⟩ 0 rows12 h (ix2 ⟨10, hr⟩ n) = u10 (ix2 0 n) :=
  concatenate_rows12_at u0 u1 u2 u3 u4 u5 u6 u7 u8 u9 u10 u11 h 10 hr u10 rfl rfl n

/-- Row 11 of the twelve joined rows is the twelfth piece. -/
theorem concatenate_rows12_11 (hr : 11 < 12) (n : Fin N) :
    concatenate ⟨2, ![12, N]⟩ 0 rows12 h (ix2 ⟨11, hr⟩ n) = u11 (ix2 0 n) :=
  concatenate_rows12_at u0 u1 u2 u3 u4 u5 u6 u7 u8 u9 u10 u11 h 11 hr u11 rfl rfl n

/-- ANY row `r` of the twelve joined rows is the piece at position `r`. -/
theorem concatenate_rows12 (r : Fin 12) (n : Fin N) :
    concatenate ⟨2, ![12, N]⟩ 0 rows12 h (ix2 r n)
      = (![u0, u1, u2, u3, u4, u5, u6, u7, u8, u9, u10, u11] r) (ix2 0 n) :=
  match r with
  | ⟨0, hr⟩ => concatenate_rows12_0 u0 u1 u2 u3 u4 u5 u6 u7 u8 u9 u10 u11 h hr n
  | ⟨1, hr⟩ => concatenate_rows12_1 u0 u1 u2 u3 u4 u5 u6 u7 u8 u9 u10 u11 h hr n
  | ⟨2, hr⟩ => concatenate_rows12_2 u0 u1 u2 u3 u4 u5 u6 u7 u8 u9 u10 u11 h hr n
  | ⟨3, hr⟩ => concatenate_rows12_3 u0 u1 u2 u3 u4 u5 u6 u7 u8 u9 u10 u11 h hr n
  | ⟨4, hr⟩ => concatenate_rows12_4 u0 u1 u2 u3 u4 u5 u6 u7 u8 u9 u10 u11 h hr n
  | ⟨5, hr⟩ => concatenate_rows12_5 u0 u1 u2 u3 u4 u5 u6 u7 u8 u9 u10 u11 h hr n
  | ⟨6, hr⟩ => concatenate_rows12_6 u0 u1 u2 u3 u4 u5 u6 u7 u8 u9 u10 u11 h hr n
  | ⟨7, hr⟩ => concatenate_rows12_7 u0 u1 u2 u3 u4 u5 u6 u7 u8 u9 u10 u11 h hr n
  | ⟨8, hr⟩ => concatenate_rows12_8 u0 u1 u2 u3 u4 u5 u6 u7 u8 u9 u10 u11 h hr n
  | ⟨9, hr⟩ => concatenate_rows12_9 u0 u1 u2 u3 u4 u5 u6 u7 u8 u9 u10 u11 h hr n
  | ⟨10, hr⟩ => concatenate_rows12_10 u0 u1 u2 u3 u4 u5 u6 u7 u8 u9 u10 u11 h hr n
  | ⟨11, hr⟩ => concatenate_rows12_11 u0 u1 u2 u3 u4 u5 u6 u7 u8 u9 u10 u11 h hr n

/-! Row `r` at the index `ix2 r n` with `r` a numeral of `Fin 12`. -/

/-- Row 0, the index's row written as a numeral. -/
theorem concatenate_rows12_num_0 (n : Fin N) :
    concatenate ⟨2, ![12, N]⟩ 0 rows12 h (ix2 (0 : Fin 12) n) = u0 (ix2 0 n) :=
  concatenate_rows12 u0 u1 u2 u3 u4 u5 u6 u7 u8 u9 u10 u11 h 0 n

/-- Row 1, the index's row written as a numeral. -/
theorem concatenate_rows12_num_1 (n : Fin N) :
    concatenate ⟨2, ![12, N]⟩ 0 rows12 h (ix2 (1 : Fin 12) n) = u1 (ix2 0 n) :=
  concatenate_rows12 u0 u1 u2 u3 u4 u5 u6 u7 u8 u9 u10 u11 h 1 n

/-- Row 2, the index's row written as a numeral. -/
theorem concatenate_rows12_num_2 (n : Fin N) :
    concatenate ⟨2, ![12, N]⟩ 0 rows12 h (ix2 (2 : Fin 12) n) = u2 (ix2 0 n) :=
  concatenate_rows12 u0 u1 u2 u3 u4 u5 u6 u7 u8 u9 u10 u11 h 2 n

/-- Row 3, the index's row written as a numeral. -/
theorem concatenate_rows12_num_3 (n : Fin N) :
    concatenate ⟨2, ![12, N]⟩ 0 rows12 h (ix2 (3 : Fin 12) n) = u3 (ix2 0 n) :=
  concatenate_rows12 u0 u1 u2 u3 u4 u5 u6 u7 u8 u9 u10 u11 h 3 n

/-- Row 4, the index's row written as a numeral. -/
theorem concatenate_rows12_num_4 (n : Fin N) :
    concatenate ⟨2, ![12, N]⟩ 0 rows12 h (ix2 (4 : Fin 12) n) = u4 (ix2 0 n) :=
  concatenate_rows12 u0 u1 u2 u3 u4 u5 u6 u7 u8 u9 u10 u11 h 4 n

/-- Row 5, the index's row written as a numeral. -/
theorem concatenate_rows12_num_5 (n : Fin N) :
    concatenate ⟨2, ![12, N]⟩ 0 rows12 h (ix2 (5 : Fin 12) n) = u5 (ix2 0 n) :=
  concatenate_rows12 u0 u1 u2 u3 u4 u5 u6 u7 u8 u9 u10 u11 h 5 n

/-- Row 6, the index's row written as a numeral. -/
theorem concatenate_rows12_num_6 (n : Fin N) :
    concatenate ⟨2, ![12, N]⟩ 0 rows12 h (ix2 (6 : Fin 12) n) = u6 (ix2 0 n) :=
  concatenate_rows12 u0 u1 u2 u3 u4 u5 u6 u7 u8 u9 u10 u11 h 6 n

/-- Row 7, the index's row written as a numeral. -/
theorem concatenate_rows12_num_7 (n : Fin N) :
    concatenate ⟨2, ![12, N]⟩ 0 rows12 h (ix2 (7 : Fin 12) n) = u7 (ix2 0 n) :=
  concatenate_rows12 u0 u1 u2 u3 u4 u5 u6 u7 u8 u9 u10 u11 h 7 n

/-- Row 8, the index's row written as a numeral. -/
theorem concatenate_rows12_num_8 (n : Fin N) :
    concatenate ⟨2, ![12, N]⟩ 0 rows12 h (ix2 (8 : Fin 12) n) = u8 (ix2 0 n) :=
  concatenate_rows12 u0 u1 u2 u3 u4 u5 u6 u7 u8 u9 u10 u11 h 8 n

/-- Row 9, the index's row written as a numeral. -/
theorem concatenate_rows12_num_9 (n : Fin N) :
    concatenate ⟨2, ![12, N]⟩ 0 rows12 h (ix2 (9 : Fin 12) n) = u9 (ix2 0 n) :=
  concatenate_rows12 u0 u1 u2 u3 u4 u5 u6 u7 u8 u9 u10 u11 h 9 n

/-- Row 10, the index's row written as a numeral. -/
theorem concatenate_rows12_num_10 (n : Fin N) :
    concatenate ⟨2, ![12, N]⟩ 0 rows12 h (ix2 (10 : Fin 12) n) = u10 (ix2 0 n) :=
  concatenate_rows12 u0 u1 u2 u3 u4 u5 u6 u7 u8 u9 u10 u11 h 10 n

/-- Row 11, the index's row written as a numeral. -/
theorem concatenate_rows12_num_11 (n : Fin N) :
    concatenate ⟨2, ![12, N]⟩ 0 rows12 h (ix2 (11 : Fin 12) n) = u11 (ix2 0 n) :=
  concatenate_rows12 u0 u1 u2 u3 u4 u5 u6 u7 u8 u9 u10 u11 h 11 n

end Rows12

/-! ## Pointwise host operations at an index -/

section Pointwise
variable {s : Shape} {φ : FTy} {w : Nat}

/-- The host's float quotient at an index is the ideal instance's division of the elements. -/
theorem host_divf_apply (a b : FVec Ideal s φ) (i : s.Idx) : Host.divf a b i = Ideal.div (a i) (b i) := rfl
/-- The host's floor at an index rounds the element down to an integer (infinities stay). -/
theorem host_floor_apply (a : FVec Ideal s φ) (i : s.Idx) : Host.floor a i = Ideal.liftRound Int.floor (a i) := rfl
/-- The host's round-to-nearest-even at an index rounds the element, ties to the even integer. -/
theorem host_roundeven_apply (a : FVec Ideal s φ) (i : s.Idx) :
    Host.roundeven a i = Ideal.liftRound Ideal.roundHalfEven (a i) := rfl
/-- The host's absolute value at an index is the larger of the element and its negation. -/
theorem host_absf_apply (a : FVec Ideal s φ) (i : s.Idx) : Host.absf a i = max (a i) (-(a i)) := rfl
/-- A float-to-signed-integer conversion at an index truncates and clamps the element. -/
theorem fptosi_apply (v : Nat) (a : FVec Ideal s φ) (i : s.Idx) : fptosi v a i = Ideal.fptosi v (a i) := rfl
/-- An integer splat reads its word everywhere. -/
theorem constantI_apply (b : BitVec w) (i : s.Idx) : constantI s w b i = b := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A signed minimum at an index is the signed minimum of the elements. -/
theorem minsi_apply (x y : IVec s w) (i : s.Idx) : minsi x y i = IntOp.minsi (x i) (y i) := rfl
/-- An integer comparison at an index compares the elements. -/
theorem cmpi_apply (p : CmpIPredicate) (x y : IVec s w) (i : s.Idx) : cmpi p x y i = IntOp.cmpi p (x i) (y i) := rfl
/-- The word-level sum is the bit-vector sum … -/
theorem intOp_addi (x y : BitVec w) : IntOp.addi x y = x + y := rfl
/-- … the word-level product the bit-vector product … -/
theorem intOp_muli (x y : BitVec w) : IntOp.muli x y = x * y := rfl
/-- … and the word-level signed minimum the `if` on the signed comparison. -/
theorem intOp_minsi (x y : BitVec w) : IntOp.minsi x y = if x.slt y then x else y := rfl

end Pointwise

end Cert.LibLayoutIx
-- ==== Proof.LibLanes.lean ====
/-
  General lemmas: reshapes between small ranks, a broadcast along a new last axis, and a concatenate of two vectors,
  each read at an index.

  A reshape keeps the row-major position: entry (p, q) of the [C, D] view of an array is the entry at position
  p · D + q of the array, which in an [A, B] array is (⌊n / B⌋, n mod B), in a vector is n, and in a [U, V, L] array
  seen as [U, V · L] is (u, ⌊q / L⌋, q mod L). A broadcast of a [U, V] array along a new last axis repeats each
  entry. A concatenate of vectors of lengths A and B reads the first below A and the second, shifted by A, from A on.
-/
import Idealize.ShloMosaic.Lib.ValueIdx
import Idealize.ShloMosaic.Lib.Pipeline.Value

namespace Cert.Lanes

open Idealize.ShloMosaic Idealize.ShloMosaic.ValueIdx

variable {α : Type}

/-- Entry (p, q) of the [C, D] reshape of an [A, B] array is the array's entry at row-major position p · D + q. -/
theorem shapeCast_2d_2d {A B C D : Nat} (x : (⟨2, ![A, B]⟩ : Shape).Idx → α)
    (h : (⟨2, ![A, B]⟩ : Shape).ShapeCasts ⟨2, ![C, D]⟩) (p : Fin C) (q : Fin D) (hB : 0 < B)
    (h1 : (p.val * D + q.val) / B < A) :
    shapeCast ⟨2, ![C, D]⟩ x h (ix2 p q) = x (ix2 ⟨(p.val * D + q.val) / B, h1⟩ ⟨(p.val * D + q.val) % B, Nat.mod_lt _ hB⟩) :=
  shapeCast_apply x h _ _ (by
    rw [Shape.rowMajor_val_two, Shape.rowMajor_val_two]
    show (p.val * D + q.val) / B * B + (p.val * D + q.val) % B = p.val * D + q.val
    exact Nat.div_add_mod' _ _)

/-- Entry (p, q) of the [C, D] reshape of a vector is the vector's entry p · D + q. -/
theorem shapeCast_1d_2d {N C D : Nat} (x : (⟨1, ![N]⟩ : Shape).Idx → α)
    (h : (⟨1, ![N]⟩ : Shape).ShapeCasts ⟨2, ![C, D]⟩) (p : Fin C) (q : Fin D) (h1 : p.val * D + q.val < N) :
    shapeCast ⟨2, ![C, D]⟩ x h (ix2 p q) = x (ix1 ⟨p.val * D + q.val, h1⟩) :=
  shapeCast_apply x h _ _ (by
    rw [Shape.rowMajor_val_one, Shape.rowMajor_val_two]
    show p.val * D + q.val = p.val * D + q.val
    rfl)

/-- Entry (u, q) of the [U, W] reshape of a [U, V, L] array (W = V · L) is the array's entry (u, ⌊q / L⌋, q mod L). -/
theorem shapeCast_3d_2d {U V L W : Nat} (x : (⟨3, ![U, V, L]⟩ : Shape).Idx → α)
    (h : (⟨3, ![U, V, L]⟩ : Shape).ShapeCasts ⟨2, ![U, W]⟩) (u : Fin U) (q : Fin W) (hL : 0 < L) (hv : q.val / L < V) :
    shapeCast ⟨2, ![U, W]⟩ x h (ix2 u q) = x (ix3 u ⟨q.val / L, hv⟩ ⟨q.val % L, Nat.mod_lt _ hL⟩) := by
  -- the two element counts agree and U is positive, so W = V · L
  have hW : W = V * L := by
    have e : (⟨2, ![U, W]⟩ : Shape).numel = (⟨3, ![U, V, L]⟩ : Shape).numel := h
    have hU : 0 < U := Nat.lt_of_le_of_lt (Nat.zero_le _) u.isLt
    simp only [Shape.numel, Fin.prod_univ_two, Fin.prod_univ_three] at e
    have e' : U * W = U * V * L := e
    rw [Nat.mul_assoc] at e'
    exact Nat.eq_of_mul_eq_mul_left hU e'
  exact shapeCast_apply x h _ _ (by
    rw [Shape.rowMajor_val_three, Shape.rowMajor_val_two]
    show (u.val * V + q.val / L) * L + q.val % L = u.val * W + q.val
    have hu : u.val * W = u.val * V * L := by rw [hW, Nat.mul_assoc]
    rw [hu, Nat.add_mul, Nat.add_assoc, Nat.div_add_mod'])

/-- A [U, V] array broadcast along a new last axis: entry (u, v, l) is entry (u, v). -/
theorem broadcastInDim_lastNew {U V L : Nat} (x : (⟨2, ![U, V]⟩ : Shape).Idx → α)
    (h : (⟨2, ![U, V]⟩ : Shape).BroadcastsInDim ⟨3, ![U, V, L]⟩ (![0, 1] : Fin 2 → Fin 3)) (u : Fin U) (v : Fin V) (l : Fin L) :
    broadcastInDim ⟨3, ![U, V, L]⟩ (![0, 1] : Fin 2 → Fin 3) h x (ix3 u v l) = x (ix2 u v) :=
  broadcastInDim_apply _ h x _ (ix2 u v) (fun a => match a with
    | ⟨0, _⟩ => by
      show u.val = if U = 1 then 0 else u.val
      split
      · next hU => have := u.isLt; omega
      · rfl
    | ⟨1, _⟩ => by
      show v.val = if V = 1 then 0 else v.val
      split
      · next hV => have := v.isLt; omega
      · rfl)

/-- Two vectors joined end to end, read in the first. -/
theorem concatenate_vec_left {A B W : Nat} (a : (⟨1, ![A]⟩ : Shape).Idx → α) (b : (⟨1, ![B]⟩ : Shape).Idx → α)
    (h : Shape.Concatenates [⟨1, ![A]⟩, ⟨1, ![B]⟩] ⟨1, ![W]⟩ 0) (i : Fin W) (hi : i.val < A) :
    concatenate ⟨1, ![W]⟩ 0 [⟨⟨1, ![A]⟩, a⟩, ⟨⟨1, ![B]⟩, b⟩] h (ix1 i) = a (ix1 ⟨i.val, hi⟩) :=
  concatenate_pair_apply_left 0 a b h (ix1 i) rfl (ix1 ⟨i.val, hi⟩) (fun c => match c with
    | ⟨0, _⟩ => rfl)

/-- Two vectors joined end to end, read in the second. -/
theorem concatenate_vec_right {A B W : Nat} (a : (⟨1, ![A]⟩ : Shape).Idx → α) (b : (⟨1, ![B]⟩ : Shape).Idx → α)
    (h : Shape.Concatenates [⟨1, ![A]⟩, ⟨1, ![B]⟩] ⟨1, ![W]⟩ 0) (i : Fin W) (hi : A ≤ i.val) (hB : i.val - A < B) :
    concatenate ⟨1, ![W]⟩ 0 [⟨⟨1, ![A]⟩, a⟩, ⟨⟨1, ![B]⟩, b⟩] h (ix1 i) = b (ix1 ⟨i.val - A, hB⟩) :=
  concatenate_pair_apply_right 0 a b h (ix1 i) rfl rfl (ix1 ⟨i.val - A, hB⟩)
    (fun c hc => match c, hc with
      | ⟨0, _⟩, hc => absurd rfl hc)
    (by show i.val - A + A = i.val; omega)

end Cert.Lanes
-- ==== Proof.HostK.lean ====
/-
  The kernel program's result, read through its host operations and its two regions down to the four arguments:
  at node s and feature j it is (Σ_r h(row r, j) · dinv(row r)) · dinv(s) + b(j), the sum over the messages arriving at s.
-/
import proofs.«414721_j27986006901444_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«414721_j27986006901444_3_alg».proof.Proof.Region0
import proofs.«414721_j27986006901444_3_alg».proof.Proof.Region1
import proofs.«414721_j27986006901444_3_alg».proof.Proof.GcnTerms
import proofs.«414721_j27986006901444_3_alg».proof.Proof.LibGatherAt
import proofs.«414721_j27986006901444_3_alg».proof.Proof.LibScatterRows
import proofs.«414721_j27986006901444_3_alg».proof.Proof.LibLayoutIx
import proofs.«414721_j27986006901444_3_alg».proof.Proof.LibLanes
import Idealize.ShloMosaic.Lib.StableHlo.Run

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The four arguments at their literal types. -/
abbrev xIn (c : Dev nD) : S100000x64.Idx → EReal := m ((c.tc : Thread nD τ).loc main_arg0)
abbrev eIn (c : Dev nD) : IVec S2x1600000 32 := m ((c.tc : Thread nD τ).loc main_arg1)
abbrev wIn (c : Dev nD) : S64x64.Idx → EReal := m ((c.tc : Thread nD τ).loc main_arg2)
abbrev bIn (c : Dev nD) : S64.Idx → EReal := m ((c.tc : Thread nD τ).loc main_arg3)

/-! ## What the first region finds: the host operations before it, one stretch at a time -/

section Abstract
open Cert.Gcn

/-- deg is the count scattered by the target words, whatever term spells them. -/
theorem deg_of_col (ei : IVec S2x1600000 32) (t : IVec S1700000 32) (ht : t = colW ei) :
    Host.scatterAdd (F := Ideal) scatter_S100000_S1700000x1_S1700000_n_0_0_1
        (broadcastInDim S100000 ![] Facts₀.bcast_S_S100000 (constant S_ .f32 0x00000000#32))
        (broadcastInDim S1700000x1 ![0] Facts₀.bcast_S1700000_S1700000x1_0 t)
        (broadcastInDim S1700000 ![] Facts₀.bcast_S_S1700000 (constant S_ .f32 0x3F800000#32)) = degV (F := Ideal) ei := by
  subst ht; rfl

/-- dinv from deg, whatever terms spell the compare, the inverse square root and the zero. -/
theorem dinv_of_parts (ei : IVec S2x1600000 32) (cm : IVec S100000 1) (rs z : FVec Ideal S100000 .f32)
    (hcm : cm = cmpf (F := Ideal) .ogt (degV ei) (broadcastInDim S100000 ![] Facts₀.bcast_S_S100000 (constant S_ .f32 0x00000000#32)))
    (hrs : rs = Host.rsqrt (degV ei)) (hz : z = broadcastInDim S100000 ![] bcast_S_S100000 (constant S_ .f32 0x00000000#32)) :
    select cm rs z = dinvV (F := Ideal) ei := by
  subst hcm hrs hz; rfl

end Abstract

/-! ## A value written to a buffer at the buffer's own type is the value -/

section Casts
open StableHlo
variable {Val : EltTy → Type}

theorem toBuf_v14 (v : (⟨S100000, .f32⟩ : BufTy).Contents Val) : (TRef.of (sig := sig) (T := ⟨S100000, .f32⟩) main_v14).toBuf v = v := rfl
theorem ofBuf_v12 (v : (⟨S100000, .i1⟩ : BufTy).Contents Val) : (TRef.of (sig := sig) (T := ⟨S100000, .i1⟩) main_v12).ofBuf v = v := rfl
theorem ofBuf_v13 (v : (⟨S100000, .f32⟩ : BufTy).Contents Val) : (TRef.of (sig := sig) (T := ⟨S100000, .f32⟩) main_v13).ofBuf v = v := rfl
theorem ofBuf_c0v1 (v : (⟨S100000, .f32⟩ : BufTy).Contents Val) : (TRef.of (sig := sig) (T := ⟨S100000, .f32⟩) main_call0_v1).ofBuf v = v := rfl
theorem toBuf_c0v1 (v : (⟨S100000, .f32⟩ : BufTy).Contents Val) : (TRef.of (sig := sig) (T := ⟨S100000, .f32⟩) main_call0_v1).toBuf v = v := rfl
theorem ofBuf_c0v0 (v : (⟨S_, .f32⟩ : BufTy).Contents Val) : (TRef.of (sig := sig) (T := ⟨S_, .f32⟩) main_call0_v0).ofBuf v = v := rfl
theorem toBuf_c0v0 (v : (⟨S_, .f32⟩ : BufTy).Contents Val) : (TRef.of (sig := sig) (T := ⟨S_, .f32⟩) main_call0_v0).toBuf v = v := rfl
theorem ofBuf_cst2 (v : (⟨S_, .f32⟩ : BufTy).Contents Val) : (TRef.of (sig := sig) (T := ⟨S_, .f32⟩) main_cst_2).ofBuf v = v := rfl
theorem toBuf_v17 (v : (⟨S1700000x64, .f32⟩ : BufTy).Contents Val) : (TRef.of (sig := sig) (T := ⟨S1700000x64, .f32⟩) main_v17).toBuf v = v := rfl
theorem ofBuf_v16 (v : (⟨S100000x64, .f32⟩ : BufTy).Contents Val) : (TRef.of (sig := sig) (T := ⟨S100000x64, .f32⟩) main_v16).ofBuf v = v := rfl
theorem ofBuf_c1v0 (v : (⟨S1700000x1, .i32⟩ : BufTy).Contents Val) : (TRef.of (sig := sig) (T := ⟨S1700000x1, .i32⟩) main_call1_v0).ofBuf v = v := rfl
theorem toBuf_c1v0 (v : (⟨S1700000x1, .i32⟩ : BufTy).Contents Val) : (TRef.of (sig := sig) (T := ⟨S1700000x1, .i32⟩) main_call1_v0).toBuf v = v := rfl
theorem ofBuf_v3 (v : (⟨S1700000, .i32⟩ : BufTy).Contents Val) : (TRef.of (sig := sig) (T := ⟨S1700000, .i32⟩) main_v3).ofBuf v = v := rfl

end Casts

theorem w3_dinv (c : Dev nD) : (W3 (F := Ideal) m ρ c (Proc.devRef .tc main_v14) : S100000.Idx → EReal) = Cert.Gcn.dinvV (F := Ideal) (eIn m c) := by
  dsimp only [W3, W2, W1, W0]
  simp only [hostOps0, hostOps0_1, hostOps0_2]
  after_results
  rw [deg_of_col (eIn m c)]
  · rw [toBuf_v14, ofBuf_v12, ofBuf_v13, ofBuf_c0v1, toBuf_c0v1, ofBuf_c0v0, toBuf_c0v0, ofBuf_cst2]
    rfl
  · rfl

theorem w3_dcol (c : Dev nD) : (W3 (F := Ideal) m ρ c (Proc.devRef .tc main_v15) : S100000x1.Idx → EReal)
    = broadcastInDim S100000x1 ![0] Facts₀.bcast_S100000_S100000x1_0 (Cert.Gcn.dinvV (F := Ideal) (eIn m c)) := by
  dsimp only [W3, W2, W1, W0]
  simp only [hostOps0, hostOps0_1, hostOps0_2]
  after_results
  rw [deg_of_col (eIn m c)]
  · rw [toBuf_v14, ofBuf_v12, ofBuf_v13, ofBuf_c0v1, toBuf_c0v1, ofBuf_c0v0, toBuf_c0v0, ofBuf_cst2]
    rfl
  · rfl

theorem w3_row (c : Dev nD) : (W3 (F := Ideal) m ρ c (Proc.devRef .tc main_v3) : IVec S1700000 32) = Cert.Gcn.rowW (eIn m c) := by
  dsimp only [W3, W2, W1, W0]
  simp only [hostOps0, hostOps0_1, hostOps0_2]
  after_results
  rfl

theorem w3_col (c : Dev nD) : (W3 (F := Ideal) m ρ c (Proc.devRef .tc main_v6) : IVec S1700000 32) = Cert.Gcn.colW (eIn m c) := by
  dsimp only [W3, W2, W1, W0]
  simp only [hostOps0, hostOps0_1, hostOps0_2]
  after_results
  rfl

theorem w3_x (c : Dev nD) : (W3 (F := Ideal) m ρ c (Proc.devRef .tc main_arg0) : S100000x64.Idx → EReal) = xIn m c := by
  dsimp only [W3, W2, W1, W0]
  simp only [hostOps0, hostOps0_1, hostOps0_2]
  after_results

theorem w3_w (c : Dev nD) : (W3 (F := Ideal) m ρ c (Proc.devRef .tc main_arg2) : S64x64.Idx → EReal) = wIn m c := by
  dsimp only [W3, W2, W1, W0]
  simp only [hostOps0, hostOps0_1, hostOps0_2]
  after_results

theorem w3_b (c : Dev nD) : (W3 (F := Ideal) m ρ c (Proc.devRef .tc main_arg3) : S64.Idx → EReal) = bIn m c := by
  dsimp only [W3, W2, W1, W0]
  simp only [hostOps0, hostOps0_1, hostOps0_2]
  after_results

/-! ## After the first region: its output array, entry by entry -/

theorem w4_hs (c : Dev nD) (n : Fin 100000) (j : Fin 64) :
    (W4 (F := Ideal) m ρ c (Proc.devRef .tc main_v16) : S100000x64.Idx → EReal) (ix2 n j)
      = Cert.Gcn.hAt (xIn m c) (wIn m c) n j * Cert.Gcn.dinvAt (eIn m c) n := by
  have h4 : (W4 (F := Ideal) m ρ c (Proc.devRef .tc main_v16) : S100000x64.Idx → EReal) = outArr0 (V3 m ρ) c :=
    W4_arr m ρ c 3
  have hx : xArr0 (V3 (F := Ideal) m ρ) c = xIn m c := w3_x m ρ c
  have hw : wArr0 (V3 (F := Ideal) m ρ) c = wIn m c := w3_w m ρ c
  have hd : dArr0 (V3 (F := Ideal) m ρ) c
      = broadcastInDim S100000x1 ![0] Facts₀.bcast_S100000_S100000x1_0 (Cert.Gcn.dinvV (F := Ideal) (eIn m c)) := w3_dcol m ρ c
  rw [h4, region0_value, hx, hw, hd, Cert.LibLayoutIx.broadcastInDim_col]
  rfl

/-! ## What the second region finds -/

/-- The scaled rows h(n, ·) · dinv(n) the first region left. -/
abbrev hsK (c : Dev nD) : S100000x64.Idx → EReal := W4 (F := Ideal) m ρ c (Proc.devRef .tc main_v16)

/-- The scaled rows gathered by the source words and added up at the target words. -/
def aggK (c : Dev nD) : S100000x64.Idx → EReal :=
  Host.scatterAdd (F := Ideal) scatter_S100000x64_S1700000x1_S1700000x64_1_0_0_1
    (broadcastInDim S100000x64 ![] Facts₀.bcast_S_S100000x64 (constant S_ .f32 0x00000000#32))
    (broadcastInDim S1700000x1 ![0] Facts₀.bcast_S1700000_S1700000x1_0 (Cert.Gcn.colW (eIn m c)))
    (Host.gather gather_S100000x64_S1700000x1_S1700000x64_1_0_n_n_0_1_164 (hsK m ρ c)
      (broadcastInDim S1700000x1 ![0] Facts₀.bcast_S1700000_S1700000x1_0 (Cert.Gcn.rowW (eIn m c))))

theorem w6_agg (c : Dev nD) : (W6 (F := Ideal) m ρ c (Proc.devRef .tc main_v21) : S50000x128.Idx → EReal)
    = shapeCast S50000x128 (aggK m ρ c) Facts₀.shapeCasts_S100000x64_S50000x128 := by
  dsimp only [W6, W5]
  simp only [hostOps1, hostOps1_1]
  after_results
  rw [toBuf_v17, ofBuf_v16, ofBuf_c1v0, toBuf_c1v0, ofBuf_v3,
    W4_of_ne m ρ c main_v6 (by decide), W4_of_ne m ρ c main_v3 (by decide), w3_col, w3_row]
  rfl

theorem w6_dl (c : Dev nD) : (W6 (F := Ideal) m ρ c (Proc.devRef .tc main_v24) : S50000x128.Idx → EReal)
    = shapeCast S50000x128 (broadcastInDim S50000x2x64 ![0, 1] Facts₀.bcast_S50000x2_S50000x2x64_0_1
        (shapeCast S50000x2 (Cert.Gcn.dinvV (F := Ideal) (eIn m c)) Facts₀.shapeCasts_S100000_S50000x2))
        Facts₀.shapeCasts_S50000x2x64_S50000x128 := by
  dsimp only [W6, W5]
  simp only [hostOps1, hostOps1_1]
  after_results
  rw [W4_of_ne m ρ c main_v14 (by decide), w3_dinv]
  rfl

theorem w6_bt (c : Dev nD) : (W6 (F := Ideal) m ρ c (Proc.devRef .tc main_v26) : S1x128.Idx → EReal)
    = broadcastInDim S1x128 ![1] Facts₀.bcast_S128_S1x128_1
        (concatenate S128 0 [⟨S64, bIn m c⟩, ⟨S64, bIn m c⟩] Facts₀.concatenates_S64_S64_S128_d0) := by
  dsimp only [W6, W5]
  simp only [hostOps1, hostOps1_1]
  after_results
  rw [W4_of_ne m ρ c main_arg3 (by decide), w3_b]

/-! ## The result array -/

theorem w8_out (c : Dev nD) : (W8 (F := Ideal) m ρ c (Proc.devRef .tc main_v28) : S100000x64.Idx → EReal)
    = shapeCast S100000x64 (outArr1 (V6 m ρ) c) Facts₀.shapeCasts_S50000x128_S100000x64 := by
  dsimp only [W8]
  simp only [hostOps2]
  after_results
  rw [show W7 (F := Ideal) m ρ c (Proc.devRef .tc main_v27) = outArr1 (V6 m ρ) c from W7_arr m ρ c 3]
  rfl

/-! ## Entry by entry -/

/-- A row scatter-add into zeros, at (s, j): the updates' column j summed over the rows whose index word is s. -/
theorem scatter_rows_zeroK (z : FVec Ideal S100000x64 .f32) (hz : ∀ i, z i = 0) (idx : IVec S1700000x1 32)
    (upd : FVec Ideal S1700000x64 .f32) (s : Fin 100000) (j : Fin 64) :
    Host.scatterAdd (F := Ideal) scatter_S100000x64_S1700000x1_S1700000x64_1_0_0_1 z idx upd (ix2 s j)
      = ∑ r ∈ Finset.univ.filter (fun r : Fin 1700000 => (idx (ix2 r (0 : Fin 1))).toInt = (s.val : Int)),
          upd (ix2 r j) := by
  have h := Cert.LibScatterRows.hostScatterAdd_rows_apply (S := 100000) (C := 64) (R := 1700000)
    Facts₀.scatter_S100000x64_S1700000x1_S1700000x64_1_0_0_1_wf z idx upd s j
  rw [hz, zero_add] at h
  exact h

/-- A row gather at (r, j): the operand's row at the clamped index word r. -/
theorem gather_rowsK (x : FVec Ideal S100000x64 .f32) (idx : IVec S1700000x1 32) (r : Fin 1700000) (j : Fin 64) :
    Host.gather gather_S100000x64_S1700000x1_S1700000x64_1_0_n_n_0_1_164 x idx (ix2 r j)
      = x (ix2 (Cert.Hand.clampIx 100000 (by decide) (idx (ix2 r (0 : Fin 1)))) j) :=
  Cert.Hand.gather_UL_apply (U := 100000) (L := 64) (N := 1700000) (by decide)
    Facts₀.gather_S100000x64_S1700000x1_S1700000x64_1_0_n_n_0_1_164_wf x idx r j

/-- The collected rows at node s, feature j. -/
theorem aggK_at (c : Dev nD) (s : Fin 100000) (j : Fin 64) :
    aggK m ρ c (ix2 s j)
      = ∑ r ∈ Cert.Gcn.segRows (eIn m c) s,
          Cert.Gcn.hAt (xIn m c) (wIn m c) (Cert.Gcn.srcK (eIn m c) r) j * Cert.Gcn.dinvAt (eIn m c) (Cert.Gcn.srcK (eIn m c) r) := by
  unfold aggK
  rw [scatter_rows_zeroK _ (fun i => (Cert.LibLayoutIx.broadcastInDim_scalar _ _ _ _ i).trans Ideal.ofBits_zero_f32)]
  refine Finset.sum_congr rfl fun r _ => ?_
  rw [gather_rowsK, Cert.LibLayoutIx.broadcastInDim_col]
  exact w4_hs m ρ c _ j

/-- Where entry (s, j) of the [100000, 64] result sits in the [50000, 128] layout. -/
abbrev laneRow (s : Fin 100000) (j : Fin 64) : Fin 50000 :=
  ⟨(s.val * 64 + j.val) / 128, by have := s.isLt; have := j.isLt; omega⟩
abbrev laneCol (s : Fin 100000) (j : Fin 64) : Fin 128 := ⟨(s.val * 64 + j.val) % 128, Nat.mod_lt _ (by decide)⟩

theorem kernel_value (c : Dev nD) (s : Fin 100000) (j : Fin 64) :
    (W8 (F := Ideal) m ρ c (Proc.devRef .tc main_v28) : S100000x64.Idx → EReal) (ix2 s j)
      = Cert.Gcn.kernelOut (m ((c.tc : Thread nD τ).loc main_arg0)) (m ((c.tc : Thread nD τ).loc main_arg1))
          (m ((c.tc : Thread nD τ).loc main_arg2)) (m ((c.tc : Thread nD τ).loc main_arg3)) s j := by
  have hs := s.isLt
  have hj := j.isLt
  rw [w8_out, Cert.Lanes.shapeCast_2d_2d _ _ s j (by decide) (laneRow s j).isLt]
  show outArr1 (V6 m ρ) c (ix2 (laneRow s j) (laneCol s j)) = _
  rw [region1_value]
  -- the collected rows: the reshape back
  have ha : aArr1 (V6 (F := Ideal) m ρ) c (ix2 (laneRow s j) (laneCol s j)) = aggK m ρ c (ix2 s j) := by
    have h1 : ((laneRow s j).val * 128 + (laneCol s j).val) / 64 < 100000 := by
      show ((s.val * 64 + j.val) / 128 * 128 + (s.val * 64 + j.val) % 128) / 64 < 100000; omega
    rw [show aArr1 (V6 (F := Ideal) m ρ) c = _ from w6_agg m ρ c,
      Cert.Lanes.shapeCast_2d_2d _ _ (laneRow s j) (laneCol s j) (by decide) h1]
    congr 2
    · exact Fin.ext (by show ((s.val * 64 + j.val) / 128 * 128 + (s.val * 64 + j.val) % 128) / 64 = s.val; omega)
    · exact Fin.ext (by show ((s.val * 64 + j.val) / 128 * 128 + (s.val * 64 + j.val) % 128) % 64 = j.val; omega)
  -- dinv spread along the lanes
  have hd : dArr1 (V6 (F := Ideal) m ρ) c (ix2 (laneRow s j) (laneCol s j)) = Cert.Gcn.dinvAt (eIn m c) s := by
    have hv : (laneCol s j).val / 64 < 2 := by show (s.val * 64 + j.val) % 128 / 64 < 2; omega
    have h2 : (laneRow s j).val * 2 + (⟨(laneCol s j).val / 64, hv⟩ : Fin 2).val < 100000 := by
      show (s.val * 64 + j.val) / 128 * 2 + (s.val * 64 + j.val) % 128 / 64 < 100000; omega
    rw [show dArr1 (V6 (F := Ideal) m ρ) c = _ from w6_dl m ρ c,
      Cert.Lanes.shapeCast_3d_2d _ _ (laneRow s j) (laneCol s j) (by decide) hv,
      Cert.Lanes.broadcastInDim_lastNew, Cert.Lanes.shapeCast_1d_2d _ _ (laneRow s j) ⟨(laneCol s j).val / 64, hv⟩ h2]
    exact congrArg (fun n : Fin 100000 => Cert.Gcn.dinvV (F := Ideal) (eIn m c) (ix1 n))
      (Fin.ext (by show (s.val * 64 + j.val) / 128 * 2 + (s.val * 64 + j.val) % 128 / 64 = s.val; omega))
  -- the bias, twice side by side
  have hb : bArr1 (V6 (F := Ideal) m ρ) c (ix2 (0 : Fin 1) (laneCol s j)) = bIn m c (ix1 j) := by
    rw [show bArr1 (V6 (F := Ideal) m ρ) c = _ from w6_bt m ρ c, Cert.LibLayoutIx.broadcastInDim_row]
    by_cases hq : (laneCol s j).val < 64
    · rw [Cert.Lanes.concatenate_vec_left _ _ _ (laneCol s j) hq]
      exact congrArg (fun n : Fin 64 => bIn m c (ix1 n))
        (Fin.ext (by show (s.val * 64 + j.val) % 128 = j.val; have : (s.val * 64 + j.val) % 128 < 64 := hq; omega))
    · have hq' : 64 ≤ (laneCol s j).val := Nat.le_of_not_lt hq
      have hB : (laneCol s j).val - 64 < 64 := by have := (laneCol s j).isLt; omega
      rw [Cert.Lanes.concatenate_vec_right _ _ _ (laneCol s j) hq' hB]
      exact congrArg (fun n : Fin 64 => bIn m c (ix1 n))
        (Fin.ext (by show (s.val * 64 + j.val) % 128 - 64 = j.val; have : 64 ≤ (s.val * 64 + j.val) % 128 := hq'; omega))
  rw [ha, hd, hb, aggK_at]
  rfl

end Cert.KernelIdeal.Hand

end
-- ==== Proof.LibGatherVec.lean ====
import proofs.«414721_j27986006901444_3_alg».proof.Proof.LibClampIx
import Idealize.ShloMosaic.Lib.ValueIdx

/-! # `stablehlo.gather` of single elements out of a vector, read at an index

`Host.gather d x idx j = x (d.operandIdx j idx)`. Here the operand is a vector `[U]`, the start indices are `[N, 1]`
with the index vector on the last axis, the operand's one axis is collapsed and named by the start-index map, and
there is neither an offset axis nor a batching axis: the result is `[N]`, and its element `n` is the operand at the
position that index word `n`, read signed, is clamped to (jax's `table[idx]` for a vector `table`). -/

namespace Cert.Hand

open Idealize.ShloMosaic Idealize.ShloMosaic.ValueIdx

variable {α : Type} {U N : Nat}

/-- Dimension numbers of a gather that reads, for each of `N` indices `u`, element `u` of an operand `[U]`: the
    result is `[N]`. -/
abbrev dimsU (U N : Nat)
    (wf : GatherDims.WF ⟨1, ![U]⟩ ⟨2, ![N, 1]⟩ ⟨1, ![N]⟩ [] [0] [] [0] [] 1 ![1]) :
    GatherDims ⟨1, ![U]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- Result element `n` is the operand at `u`, where `u` is index word `n` read signed and clamped into the axis. -/
theorem gather_U_apply (hU : 0 < U)
    (wf : GatherDims.WF ⟨1, ![U]⟩ ⟨2, ![N, 1]⟩ ⟨1, ![N]⟩ [] [0] [] [0] [] 1 ![1])
    (x : (⟨1, ![U]⟩ : Shape).Idx → α) (idx : IVec ⟨2, ![N, 1]⟩ 32) (n : Fin N) :
    Host.gather (dimsU U N wf) x idx (ix1 n) = x (ix1 (clampIx U hU (idx (ix2 n 0)))) := by
  unfold Host.gather
  congr 1
  funext a
  refine Fin.ext ?_
  match a with
  | ⟨0, h0⟩ =>
    -- the one axis is collapsed and is the start index's one component
    show GatherDims.start _ _ _ _ + GatherDims.batchCoord _ _ _ + GatherDims.offCoord _ _ _ = _
    have hm : (⟨0, h0⟩ : Fin 1) ∈ (dimsU U N wf).startIndexMap :=
      (by decide : (0 : Fin 1) ∈ ([0] : List (Fin 1)))
    rw [GatherDims.batchCoord_eq_zero _ _ _ List.not_mem_nil,
      GatherDims.offCoord_eq_zero _ _ _ (show (⟨0, h0⟩ : Fin 1) ∉ (dimsU U N wf).sKept from
        (by decide : (0 : Fin 1) ∉ ([] : List (Fin 1))))]
    unfold GatherDims.start
    rw [dif_pos hm]
    have hsi : (dimsU U N wf).siIdx (ix1 n)
        ⟨List.idxOf (⟨0, h0⟩ : Fin 1) (dimsU U N wf).startIndexMap, List.idxOf_lt_length_iff.2 hm⟩
          = ix2 n 0 := by
      funext b; refine Fin.ext ?_
      match b with
      | ⟨0, _⟩ => rfl
      | ⟨1, _⟩ => rfl
    rw [hsi]
    rfl

end Cert.Hand
-- ==== Proof.RefValue.lean ====
/-
  The reference program's result, read one operation at a time down to the four arguments: at node s and feature j it
  is Σ_r h(row' r, j) · (dinv(row' r) · dinv(col' r)) + b(j), the sum over the messages arriving at s, where row' and col'
  are the source and target words after NumPy's normalisation of a negative index, clamped onto the axis.
-/
import proofs.«414721_j27986006901444_3_alg».proof.Proof.RefRun
import proofs.«414721_j27986006901444_3_alg».proof.Proof.RefRead
import proofs.«414721_j27986006901444_3_alg».proof.Proof.GcnTerms
import proofs.«414721_j27986006901444_3_alg».proof.Proof.LibGatherAt
import proofs.«414721_j27986006901444_3_alg».proof.Proof.LibGatherVec
import proofs.«414721_j27986006901444_3_alg».proof.Proof.LibScatterRows
import proofs.«414721_j27986006901444_3_alg».proof.Proof.LibLayoutIx
import Idealize.ShloMosaic.Lib.ValueIdx

noncomputable section

namespace Cert.ReferenceIdeal.Hand

open Idealize.ShloMosaic Idealize.ShloMosaic.TcCoe Idealize.SL.Sem Idealize.ShloMosaic.ValueIdx
open Cert.ReferenceIdeal Cert.ReferenceIdeal.Gen

section Stages

open Cert.ReferenceIdeal.ReadP

/-- The reference's source words, target words and target column are the shared terms; its dinv is the shared dinv. -/
theorem v3_eq (ei : IVec S2x1600000 32) : val_main_v3 (F := Ideal) ei = Cert.Gcn.rowW ei := rfl
theorem v6_eq (ei : IVec S2x1600000 32) : val_main_v6 (F := Ideal) ei = Cert.Gcn.colW ei := rfl
theorem v42_eq (ei : IVec S2x1600000 32) : val_main_v42 (F := Ideal) ei = Cert.Gcn.colIx ei := rfl
theorem v14_eq (ei : IVec S2x1600000 32) : val_main_v14 (F := Ideal) ei = Cert.Gcn.dinvV (F := Ideal) ei := rfl

open Cert.Gcn Cert.Hand Cert.LibLayoutIx

/-- The normalised source word of message r. -/
theorem v19_at (ei : IVec S2x1600000 32) (r : Fin 1700000) :
    val_main_v19 (F := Ideal) ei (ix1 r) = wrapW (rowW ei (ix1 r)) := by
  rw [val_main_v19_apply, val_main_v16_apply, val_main_v18_apply, val_main_v15_apply, val_main_v17_apply,
    val_main_c_apply, val_main_c_3_apply, v3_eq]
  rfl

/-- The same word, as the gather of the rows of h takes it. -/
theorem v35_at (ei : IVec S2x1600000 32) (r : Fin 1700000) :
    val_main_v35 (F := Ideal) ei (ix1 r) = wrapW (rowW ei (ix1 r)) := by
  rw [val_main_v35_apply, val_main_v32_apply, val_main_v34_apply, val_main_v31_apply, val_main_v33_apply,
    val_main_c_6_apply, val_main_c_7_apply, v3_eq]
  rfl

/-- The normalised target word of message r. -/
theorem v26_at (ei : IVec S2x1600000 32) (r : Fin 1700000) :
    val_main_v26 (F := Ideal) ei (ix1 r) = wrapW (colW ei (ix1 r)) := by
  rw [val_main_v26_apply, val_main_v23_apply, val_main_v25_apply, val_main_v22_apply, val_main_v24_apply,
    val_main_c_4_apply, val_main_c_5_apply, v6_eq]
  rfl

/-- The normalised words as columns of index vectors, read in row r. -/
theorem v20_at (ei : IVec S2x1600000 32) (r : Fin 1700000) :
    val_main_v20 (F := Ideal) ei (ix2 r (0 : Fin 1)) = wrapW (rowW ei (ix1 r)) :=
  (broadcastInDim_col bcast_S1700000_S1700000x1_0 (val_main_v19 (F := Ideal) ei) r 0).trans (v19_at ei r)

theorem v27_at (ei : IVec S2x1600000 32) (r : Fin 1700000) :
    val_main_v27 (F := Ideal) ei (ix2 r (0 : Fin 1)) = wrapW (colW ei (ix1 r)) :=
  (broadcastInDim_col bcast_S1700000_S1700000x1_0 (val_main_v26 (F := Ideal) ei) r 0).trans (v26_at ei r)

theorem v36_at (ei : IVec S2x1600000 32) (r : Fin 1700000) :
    val_main_v36 (F := Ideal) ei (ix2 r (0 : Fin 1)) = wrapW (rowW ei (ix1 r)) :=
  (broadcastInDim_col bcast_S1700000_S1700000x1_0 (val_main_v35 (F := Ideal) ei) r 0).trans (v35_at ei r)

/-- dinv gathered by the normalised source word: dinv at the node that word is clamped to. -/
theorem v21_at (ei : IVec S2x1600000 32) (r : Fin 1700000) :
    val_main_v21 (F := Ideal) ei (ix1 r) = dinvAt ei (srcR ei r) := by
  have h := gather_U_apply (U := 100000) (N := 1700000) (by decide)
    gather_S100000_S1700000x1_S1700000_n_0_n_n_0_1_1_wf (val_main_v14 (F := Ideal) ei) (val_main_v20 (F := Ideal) ei) r
  rw [v20_at, v14_eq] at h
  exact h

/-- dinv gathered by the normalised target word. -/
theorem v28_at (ei : IVec S2x1600000 32) (r : Fin 1700000) :
    val_main_v28 (F := Ideal) ei (ix1 r) = dinvAt ei (dstR ei r) := by
  have h := gather_U_apply (U := 100000) (N := 1700000) (by decide)
    gather_S100000_S1700000x1_S1700000_n_0_n_n_0_1_1_wf (val_main_v14 (F := Ideal) ei) (val_main_v27 (F := Ideal) ei) r
  rw [v27_at, v14_eq] at h
  exact h

/-- norm of message r: dinv at its source times dinv at its target. -/
theorem v29_at (ei : IVec S2x1600000 32) (r : Fin 1700000) :
    val_main_v29 (F := Ideal) ei (ix1 r) = dinvAt ei (srcR ei r) * dinvAt ei (dstR ei r) :=
  (mulf_apply (val_main_v21 (F := Ideal) ei) (val_main_v28 (F := Ideal) ei) (ix1 r)).trans (by rw [v21_at, v28_at])

/-- h = x · W at (n, j). -/
theorem v30_at (x : FVec Ideal S100000x64 .f32) (w : FVec Ideal S64x64 .f32) (n : Fin 100000) (j : Fin 64) :
    val_main_v30 (F := Ideal) x w (ix2 n j) = hAt x w n j := by
  rw [val_main_v30_apply]
  unfold hAt
  refine Finset.sum_congr rfl fun k _ => ?_
  have el : lidx_main_v30 (ix2 n j) k = ix2 n k :=
    funext fun a => Fin.ext (by match a with | ⟨0, _⟩ => rfl | ⟨1, _⟩ => rfl)
  have er : ridx_main_v30 (ix2 n j) k = ix2 k j :=
    funext fun a => Fin.ext (by match a with | ⟨0, _⟩ => rfl | ⟨1, _⟩ => rfl)
  rw [el, er]

/-- The gathered row of h for message r. -/
theorem v37_at (x : FVec Ideal S100000x64 .f32) (ei : IVec S2x1600000 32) (w : FVec Ideal S64x64 .f32)
    (r : Fin 1700000) (j : Fin 64) :
    val_main_v37 (F := Ideal) x ei w (ix2 r j) = hAt x w (srcR ei r) j := by
  have h := gather_UL_apply (U := 100000) (L := 64) (N := 1700000) (by decide)
    gather_S100000x64_S1700000x1_S1700000x64_1_0_n_n_0_1_164_wf (val_main_v30 (F := Ideal) x w)
    (val_main_v36 (F := Ideal) ei) r j
  rw [v36_at, v30_at] at h
  exact h

/-- norm of message r, spread along the features. -/
theorem v39_at (ei : IVec S2x1600000 32) (r : Fin 1700000) (j : Fin 64) :
    val_main_v39 (F := Ideal) ei (ix2 r j) = dinvAt ei (srcR ei r) * dinvAt ei (dstR ei r) :=
  (broadcastInDim_cols bcast_S1700000x1_S1700000x64_0_1 (val_main_v38 (F := Ideal) ei) r j).trans
    ((broadcastInDim_col bcast_S1700000_S1700000x1_0 (val_main_v29 (F := Ideal) ei) r 0).trans (v29_at ei r))

/-- The scaled message r at feature j. -/
theorem v40_at (x : FVec Ideal S100000x64 .f32) (ei : IVec S2x1600000 32) (w : FVec Ideal S64x64 .f32)
    (r : Fin 1700000) (j : Fin 64) :
    val_main_v40 (F := Ideal) x ei w (ix2 r j)
      = hAt x w (srcR ei r) j * (dinvAt ei (srcR ei r) * dinvAt ei (dstR ei r)) :=
  (mulf_apply (val_main_v37 (F := Ideal) x ei w) (val_main_v39 (F := Ideal) ei) (ix2 r j)).trans
    (by rw [v37_at, v39_at])

/-- The scatter's operand is zero everywhere. -/
theorem v41_at (i : S100000x64.Idx) : val_main_v41 (F := Ideal) i = 0 := by
  rw [val_main_v41_apply, val_main_cst_8_apply]; exact Ideal.ofBits_zero_f32

/-- A row scatter-add into zeros, at (s, j): the updates' column j summed over the rows whose index word is s. -/
theorem scatter_rows_zero (z : FVec Ideal S100000x64 .f32) (hz : ∀ i, z i = 0) (idx : IVec S1700000x1 32)
    (upd : FVec Ideal S1700000x64 .f32) (s : Fin 100000) (j : Fin 64) :
    Host.scatterAdd (F := Ideal) scatter_S100000x64_S1700000x1_S1700000x64_1_0_0_1 z idx upd (ix2 s j)
      = ∑ r ∈ Finset.univ.filter (fun r : Fin 1700000 => (idx (ix2 r (0 : Fin 1))).toInt = (s.val : Int)),
          upd (ix2 r j) := by
  have h := Cert.LibScatterRows.hostScatterAdd_rows_apply (S := 100000) (C := 64) (R := 1700000)
    scatter_S100000x64_S1700000x1_S1700000x64_1_0_0_1_wf z idx upd s j
  rw [hz, zero_add] at h
  exact h

/-- The messages collected at node s. -/
theorem v43_at (x : FVec Ideal S100000x64 .f32) (ei : IVec S2x1600000 32) (w : FVec Ideal S64x64 .f32)
    (s : Fin 100000) (j : Fin 64) :
    val_main_v43 (F := Ideal) x ei w (ix2 s j)
      = ∑ r ∈ segRows ei s, hAt x w (srcR ei r) j * (dinvAt ei (srcR ei r) * dinvAt ei (dstR ei r)) := by
  have h := scatter_rows_zero (val_main_v41 (F := Ideal)) v41_at (val_main_v42 (F := Ideal) ei)
    (val_main_v40 (F := Ideal) x ei w) s j
  rw [v42_eq] at h
  exact h.trans (Finset.sum_congr rfl fun r _ => v40_at x ei w r j)

/-- The bias, spread along the nodes. -/
theorem v45_at (b : FVec Ideal S64 .f32) (s : Fin 100000) (j : Fin 64) :
    val_main_v45 (F := Ideal) b (ix2 s j) = b (ix1 j) :=
  (broadcastInDim_rows bcast_S1x64_S100000x64_0_1 (val_main_v44 (F := Ideal) b) s j).trans
    (broadcastInDim_row bcast_S64_S1x64_1 b 0 j)

/-- The result at node s, feature j: the collected messages plus the bias. -/
theorem v46_at (x : FVec Ideal S100000x64 .f32) (ei : IVec S2x1600000 32) (w : FVec Ideal S64x64 .f32)
    (b : FVec Ideal S64 .f32) (s : Fin 100000) (j : Fin 64) :
    val_main_v46 (F := Ideal) x ei w b (ix2 s j) = refOut x ei w b s j := by
  unfold refOut
  exact (addf_apply (val_main_v43 (F := Ideal) x ei w) (val_main_v45 (F := Ideal) b) (ix2 s j)).trans
    (by rw [v43_at, v45_at])

end Stages

theorem ref_value (m : (ℓ : Loc nD τ sig) → Buf (Elt Ideal) ℓ) (c : Dev nD) (s : Fin 100000) (j : Fin 64) :
    (Cert.ReferenceIdeal.ValueP.res_out0 (F := Ideal) m c : S100000x64.Idx → EReal) (ix2 s j)
      = Cert.Gcn.refOut (m ((c.tc : Thread nD τ).loc main_arg0)) (m ((c.tc : Thread nD τ).loc main_arg1))
          (m ((c.tc : Thread nD τ).loc main_arg2)) (m ((c.tc : Thread nD τ).loc main_arg3)) s j := by
  have h := congrFun (Cert.ReferenceIdeal.ReadP.val_main_v46_eq (F := Ideal) m c) (ix2 s j)
  exact h.trans (v46_at _ _ _ _ s j)

end Cert.ReferenceIdeal.Hand

end
-- ==== Proof.GcnLaw.lean ====
/-
  The law that joins the two results. Where no source word is negative the normalisation of the source index does
  nothing, so both programs gather the same node; a message arriving at node s has target word s, which normalised and
  clamped is s again; and dinv(s) is a real number that is not negative (an inverse square root of a positive count, or
  0), so on the extended reals it may be moved out of the finite sum:  Σ_r a_r · (d_r · D) = (Σ_r a_r · d_r) · D.
-/
import proofs.«414721_j27986006901444_3_alg».proof.Proof.GcnTerms
import proofs.«414721_j27986006901444_3_alg».proof.Proof.LibLayoutIx
import Idealize.ShloMosaic.PureOps.Ideal
import Idealize.ShloMosaic.Lib.ValueIdx
import Idealize.ShloMosaic.PureOps.Ideal.Laws

noncomputable section

namespace Cert.Gcn

open Idealize.ShloMosaic Idealize.ShloMosaic.ValueIdx Cert.KernelIdeal Cert.Hand

/-- A factor that is a real number and not negative moves out of a finite sum of products on the extended reals. -/
theorem sum_mul_right {ι : Type} (S : Finset ι) (a d : ι → EReal) (D : EReal) (h0 : 0 ≤ D) (ht : D ≠ ⊤) :
    (∑ r ∈ S, a r * d r) * D = ∑ r ∈ S, a r * (d r * D) := by
  classical
  induction S using Finset.induction_on with
  | empty => simp
  | insert i S hi ih =>
    rw [Finset.sum_insert hi, Finset.sum_insert hi, EReal.right_distrib_of_nonneg_of_ne_top h0 ht, ih, mul_assoc]

/-- The normalisation leaves a word that is not negative alone. -/
theorem wrapW_of_nonneg (w : BitVec 32) (h0 : 0 ≤ w.toInt) : wrapW w = w := by
  unfold wrapW
  have hc : IntOp.cmpi CmpIPredicate.slt w 0#32 = 0#1 := by
    show BitVec.ofBool (w.slt 0#32) = 0#1
    rw [slt_zero_of_nonneg w h0]; rfl
  rw [hc, select_zero]

/-- The select that defines dinv, read at a node, over any vector of counts. -/
theorem sel_at (deg : FVec Ideal S100000 .f32) (n : Fin 100000) :
    select (cmpf .ogt deg (broadcastInDim S100000 ![] Facts₀.bcast_S_S100000 (constant S_ .f32 0x00000000#32)))
      (Host.rsqrt deg) (broadcastInDim S100000 ![] Facts₀.bcast_S_S100000 (constant S_ .f32 0x00000000#32)) (ix1 n)
      = Scalar.select (Ideal.cmp .ogt (deg (ix1 n)) 0) (Ideal.rsqrt (deg (ix1 n))) (0 : EReal) := by
  rw [select_apply, cmpf_apply]
  have hz : broadcastInDim S100000 ![] Facts₀.bcast_S_S100000 (constant (F := Ideal) S_ .f32 0x00000000#32) (ix1 n) = (0 : EReal) := by
    show Ideal.ofBits .f32 0x00000000#32 = 0
    exact Ideal.ofBits_zero_f32
  rw [hz]
  rfl

/-- dinv at a node: the inverse square root of the count there where the count is positive, else 0. -/
theorem dinvAt_eq (ei : IVec S2x1600000 32) (n : Fin 100000) :
    dinvAt ei n = Scalar.select (Ideal.cmp .ogt (degV (F := Ideal) ei (ix1 n)) 0) (Ideal.rsqrt (degV (F := Ideal) ei (ix1 n))) (0 : EReal) :=
  sel_at (degV (F := Ideal) ei) n

/-- The inverse square root kept where the count is positive, else 0: a real number that is not negative. -/
theorem sel_rsqrt_nonneg (x : EReal) :
    0 ≤ Scalar.select (Ideal.cmp .ogt x 0) (Ideal.rsqrt x) (0 : EReal) ∧
      Scalar.select (Ideal.cmp .ogt x 0) (Ideal.rsqrt x) (0 : EReal) ≠ ⊤ := by
  induction x using EReal.rec with
  | bot => simp [Scalar.select, Ideal.cmp]
  | top => simp [Scalar.select, Ideal.cmp]
  | coe r =>
    by_cases hr : 0 < r
    · have hc : Ideal.cmp .ogt (r : EReal) 0 = 1#1 := by
        simp [Ideal.cmp, hr]
      rw [hc, select_one, Ideal.rsqrt_coe, if_neg (not_lt.mpr hr.le), if_neg hr.ne']
      refine ⟨?_, EReal.coe_ne_top _⟩
      exact_mod_cast (inv_nonneg.mpr (Real.sqrt_nonneg r))
    · have hc : Ideal.cmp .ogt (r : EReal) 0 = 0#1 := by
        simp [Ideal.cmp, hr]
      rw [hc, select_zero]
      exact ⟨le_refl _, EReal.zero_ne_top⟩

/-- dinv at a node is a real number that is not negative. -/
theorem dinvAt_nonneg (ei : IVec S2x1600000 32) (n : Fin 100000) : 0 ≤ dinvAt ei n ∧ dinvAt ei n ≠ ⊤ := by
  rw [dinvAt_eq]; exact sel_rsqrt_nonneg _

/-- Where no source word is negative the normalised source word is clamped to the same node. -/
theorem srcR_eq (ei : IVec S2x1600000 32) (hrow : ∀ r : Fin 1700000, 0 ≤ (rowW ei (ix1 r)).toInt) (r : Fin 1700000) :
    srcR ei r = srcK ei r := by
  unfold srcR srcK
  rw [wrapW_of_nonneg _ (hrow r)]

/-- A vector laid down as a column reads its own coordinate. -/
theorem col_at (v : IVec S1700000 32) (r : Fin 1700000) :
    broadcastInDim S1700000x1 ![0] Facts₀.bcast_S1700000_S1700000x1_0 v (ix2 r (0 : Fin 1)) = v (ix1 r) :=
  Cert.LibLayoutIx.broadcastInDim_col _ v r 0

/-- A word whose signed value is the node s, normalised and clamped, is s. -/
theorem clamp_wrap_of_eq (w : BitVec 32) (s : Fin 100000) (hm : w.toInt = (s.val : Int)) :
    clampIx 100000 (by decide) (wrapW w) = s := by
  have hs := s.isLt
  have h0 : 0 ≤ w.toInt := by omega
  have hlt : w.toInt < ((100000 : Nat) : Int) := by omega
  rw [wrapW_of_nonneg w h0]
  apply Fin.ext
  rw [clampIx_val_of_mem 100000 (by decide) w h0 hlt]
  omega

/-- A message arriving at node s has s as its normalised, clamped target. -/
theorem dstR_eq (ei : IVec S2x1600000 32) (s : Fin 100000) (r : Fin 1700000) (hr : r ∈ segRows ei s) :
    dstR ei r = s := by
  have hm : (colIx ei (ix2 r (0 : Fin 1))).toInt = (s.val : Int) := (Finset.mem_filter.mp hr).2
  unfold colIx at hm
  rw [col_at] at hm
  exact clamp_wrap_of_eq _ s hm

/-- Scaling after collecting and scaling every message agree where no source word is negative. -/
theorem out_eq (x : FVec Ideal S100000x64 .f32) (ei : IVec S2x1600000 32) (w : FVec Ideal S64x64 .f32) (b : FVec Ideal S64 .f32)
    (hrow : ∀ r : Fin 1700000, 0 ≤ (rowW ei (ix1 r)).toInt) (s : Fin 100000) (j : Fin 64) :
    kernelOut x ei w b s j = refOut x ei w b s j := by
  obtain ⟨h0, ht⟩ := dinvAt_nonneg ei s
  have key : (∑ r ∈ segRows ei s, hAt x w (srcK ei r) j * dinvAt ei (srcK ei r)) * dinvAt ei s
      = ∑ r ∈ segRows ei s, hAt x w (srcR ei r) j * (dinvAt ei (srcR ei r) * dinvAt ei (dstR ei r)) := by
    refine (sum_mul_right (segRows ei s) (fun r => hAt x w (srcK ei r) j) (fun r => dinvAt ei (srcK ei r))
      (dinvAt ei s) h0 ht).trans ?_
    refine Finset.sum_congr rfl (fun r hr => ?_)
    show hAt x w (srcK ei r) j * (dinvAt ei (srcK ei r) * dinvAt ei s) = _
    rw [srcR_eq ei hrow r, dstR_eq ei s r hr]
  unfold kernelOut refOut
  rw [key]

end Cert.Gcn

end
-- ==== Proof.PreRow.lean ====
/-
  What the precondition says about the edge list: its last conjunct is that every given source word, read signed, is at
  least 0; the N self loops appended after them are the words 0 … N − 1, so no source word of any message is negative.
-/
import proofs.«414721_j27986006901444_3_alg».proof.Proof.Gen.Pre_finite_inputs
import proofs.«414721_j27986006901444_3_alg».proof.Proof.GcnTerms
import proofs.«414721_j27986006901444_3_alg».proof.Proof.LibLayoutIx
import proofs.«414721_j27986006901444_3_alg».proof.Proof.LibLanes
import Idealize.ShloMosaic.Lib.ReduceAll
import Idealize.ShloMosaic.Lib.StableHlo.Predicate
import Idealize.ShloMosaic.Lib.ValueIdx

noncomputable section

namespace Cert.Gcn

open Idealize.ShloMosaic Idealize.ShloMosaic.ValueIdx Cert.KernelIdeal Cert.Hand

/-- The rank-0 shape has one index. -/
local instance subsingleton_scalar_idx : Subsingleton Cert.Pre_finite_inputs.S_.Idx :=
  ⟨fun a b => funext fun d => d.elim0⟩

/-- The last conjunct of the precondition, read at one given source: its word, read signed, is at least 0. -/
theorem src_nonneg_of_pre (x : FVec Ideal S100000x64 .f32) (ei : IVec S2x1600000 32) (w : FVec Ideal S64x64 .f32) (b : FVec Ideal S64 .f32)
    (h : Cert.Pre_finite_inputs.fn (F := Ideal) x ei w b = fun _ => 1#1) (q : Fin 1600000) :
    0 ≤ (ei (ix2 (0 : Fin 2) q)).toInt := by
  have e := congrFun h ValueIdx.ix0
  dsimp only [Cert.Pre_finite_inputs.fn, Cert.Pre_finite_inputs.fn_part1] at e
  change IntOp.andi _ _ = 1#1 at e
  have e2 := (IntOp.andi_eq_one.1 e).2
  have e3 := Host.reduce_andi_all _ _ _ _ ValueIdx.ix0 e2 (ix1 q)
  change IntOp.cmpi .sge _ _ = 1#1 at e3
  rw [IntOp.cmpi_sge, Cert.LibLayoutIx.broadcastInDim_scalar, Cert.LibLayoutIx.shapeCast_row,
    Cert.LibLayoutIx.extractStridedSlice_row] at e3
  exact e3

theorem row_nonneg_of_pre (x : FVec Ideal S100000x64 .f32) (ei : IVec S2x1600000 32) (w : FVec Ideal S64x64 .f32) (b : FVec Ideal S64 .f32)
    (h : Cert.Pre_finite_inputs.fn (F := Ideal) x ei w b = fun _ => 1#1) :
    ∀ r : Fin 1700000, 0 ≤ (rowW ei (ix1 r)).toInt := by
  intro r
  unfold rowW
  by_cases hr : r.val < 1600000
  · rw [Cert.Lanes.concatenate_vec_left _ _ _ r hr, Cert.LibLayoutIx.shapeCast_row,
      Cert.LibLayoutIx.extractStridedSlice_row]
    exact src_nonneg_of_pre x ei w b h ⟨r.val, hr⟩
  · have hB : r.val - 1600000 < 100000 := by have := r.isLt; omega
    rw [Cert.Lanes.concatenate_vec_right _ _ _ r (by omega) hB]
    -- a self loop's word is its position counted from the first one, a number below 2³¹
    change 0 ≤ (BitVec.ofNat 32 (r.val - 1600000)).toInt
    rw [StableHlo.Predicate.toInt_ofNat_small _ (by omega)]
    exact Int.natCast_nonneg _

end Cert.Gcn

end
-- ==== Proof.lean ====
/-
  The certificate of a graph-convolution layer (normalised adjacency, sparse aggregation, linear map) against its
  reference, over the extended reals.

  Both programs count the messages arriving at each node (deg), take dinv = deg^(-1/2) (0 at a node nothing reaches),
  form h = x · W, and for every node s add up, over the messages r arriving at s, h(row r) weighted by
  dinv(row r) · dinv(s), and add the bias. The reference weights every message before adding them up; the kernel
  program scales h(n) by dinv(n) in a first kernel, gathers and adds up the scaled rows on the host, and in a second
  kernel, on a layout that puts two nodes in one 128-lane row, scales the sum at s by dinv(s) and adds the bias.
  The two agree because dinv(s) is a real number that is not negative, so it may be taken out of the finite sum.

  The reference reads a source node with NumPy's indexing, which sends a negative index i to N + i; the kernel program
  gathers with clipping, which sends it to 0. The precondition therefore says, besides finiteness of the float inputs,
  that no source index is negative (a node id is one of 0 … N − 1); nothing more about the indices is needed: an
  index at or above N is clamped to N − 1 by both, and a message whose target is off the axis is dropped by both.

  The three frames: the two kernel programs' are the generated frame certificates; the reference's is its run with the
  result dropped. `preserves` is `True`: the ideal pass rewrote no operation.
-/
import proofs.«414721_j27986006901444_3_alg».proof.Defs
import proofs.«414721_j27986006901444_3_alg».proof.Proof.Gen.Kernel
import proofs.«414721_j27986006901444_3_alg».proof.Proof.Gen.Kernel.Skeleton
import proofs.«414721_j27986006901444_3_alg».proof.Proof.Gen.Kernel.Launch
import proofs.«414721_j27986006901444_3_alg».proof.Proof.Gen.Kernel.Points
import proofs.«414721_j27986006901444_3_alg».proof.Proof.Gen.Kernel.Frame
import proofs.«414721_j27986006901444_3_alg».proof.Proof.Gen.KernelIdeal
import proofs.«414721_j27986006901444_3_alg».proof.Proof.Gen.KernelIdeal.Skeleton
import proofs.«414721_j27986006901444_3_alg».proof.Proof.Gen.KernelIdeal.Launch
import proofs.«414721_j27986006901444_3_alg».proof.Proof.Gen.KernelIdeal.Points
import proofs.«414721_j27986006901444_3_alg».proof.Proof.Gen.KernelIdeal.Frame
import proofs.«414721_j27986006901444_3_alg».proof.Proof.Gen.ReferenceIdeal
import proofs.«414721_j27986006901444_3_alg».proof.Proof.Gen.Pre_finite_inputs
import proofs.«414721_j27986006901444_3_alg».proof.Proof.RefRun
import proofs.«414721_j27986006901444_3_alg».proof.Proof.RunK
import proofs.«414721_j27986006901444_3_alg».proof.Proof.HostK
import proofs.«414721_j27986006901444_3_alg».proof.Proof.RefValue
import proofs.«414721_j27986006901444_3_alg».proof.Proof.GcnLaw
import proofs.«414721_j27986006901444_3_alg».proof.Proof.PreRow
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: entry (s, j) of the kernel
    program's is (Σ_r h(row r, j) · dinv(row r)) · dinv(s) + b(j), of the reference's Σ_r h(row r, j) · (dinv(row r) ·
    dinv(col r)) + b(j), and these are equal where no source index is negative, which the precondition says. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v28),
    Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨s, j, rfl⟩ : ∃ (s : Fin 100000) (j : Fin 64), i = ix2 s j := ⟨i 0, i 1, eq_ix2 i⟩
  refine (Cert.ReferenceIdeal.Hand.ref_value m' c s j).trans ?_
  rw [(hagree c).1, (hagree c).2.1, (hagree c).2.2.1, (hagree c).2.2.2]
  refine Eq.trans ?_ (Cert.KernelIdeal.Hand.kernel_value m ρ c s j).symm
  exact (Cert.Gcn.out_eq _ _ _ _ (Cert.Gcn.row_nonneg_of_pre _ _ _ _ (hpre c)) s j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
